-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_t" .f32 0x41200000#32 ((134217728 / 13421773 : ℝ) : EReal)
  ∧ IdealRules.named_const.Statement Cert.KernelIdeal.κ "inv_t" .f32 0x41200000#32 ((134217728 / 13421773 : ℝ) : EReal)
  ∧ IdealRules.named_const.Statement Cert.KernelIdeal.κ "inv_t" .f32 0x41200000#32 ((134217728 / 13421773 : ℝ) : EReal)
  ∧ IdealRules.named_const.Statement Cert.KernelIdeal.κ "inv_t" .f32 0x41200000#32 ((134217728 / 13421773 : ℝ) : EReal)
  ∧ IdealRules.named_const.Statement Cert.KernelIdeal.κ "inv_t" .f32 0x41200000#32 ((134217728 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel

variable [Facts]

def fn {F : FTy → Type} [FloatOps F] (main_arg0 : FVec F S4096x256 .f32) (main_arg1 : FVec F S4096x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  main_v8
-- ==== Kernel.lean ====
abbrev S4096x256 : Shape := ⟨2, ![4096, 256]⟩
abbrev S8192x256 : Shape := ⟨2, ![8192, 256]⟩
abbrev S1024x256 : Shape := ⟨2, ![1024, 256]⟩
abbrev S1024 : Shape := ⟨1, ![1024]⟩
abbrev S1024x1 : Shape := ⟨2, ![1024, 1]⟩
abbrev S1x8192 : Shape := ⟨2, ![1, 8192]⟩
abbrev S256x256 : Shape := ⟨2, ![256, 256]⟩
abbrev S1x256 : Shape := ⟨2, ![1, 256]⟩
abbrev S256 : Shape := ⟨1, ![256]⟩
abbrev S256x1 : Shape := ⟨2, ![256, 1]⟩
abbrev S2048x256 : Shape := ⟨2, ![2048, 256]⟩
abbrev S256x2048 : Shape := ⟨2, ![256, 2048]⟩
abbrev S_ : Shape := ⟨0, ![]⟩

abbrev nBuf : Space → Nat
  | .hbm => 9
  | .vmem => 9
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S8192x256, .f32⟩
  | .hbm, ⟨3, _⟩ => ⟨S8192x256, .bf16⟩
  | .hbm, ⟨4, _⟩ => ⟨S1x8192, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S1024x256, .f32⟩
  | .local _ .vmem, ⟨1, _⟩ => ⟨S1024x256, .f32⟩
  | .local _ .vmem, ⟨2, _⟩ => ⟨S1024x256, .bf16⟩
  | .local _ .vmem, ⟨3, _⟩ => ⟨S1024x256, .bf16⟩
  | .local _ .vmem, ⟨4, _⟩ => ⟨S256x256, .bf16⟩
  | .local _ .vmem, ⟨5, _⟩ => ⟨S256x256, .bf16⟩
  | .local _ .vmem, ⟨6, _⟩ => ⟨S8192x256, .bf16⟩
  | .local _ .vmem, ⟨7, _⟩ => ⟨S1x256, .f32⟩
  | .local _ .vmem, ⟨8, _⟩ => ⟨S1x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![32], ![false]⟩

def k1_mult1 (i : grid1.Coords) : BitVec 32 :=
  let arg0 : BitVec 32 := BitVec.ofNat 32 (i 0).val
  let c256_i32 : BitVec 32 := 256#32
  let v2 : BitVec 32 := Scalar.muli arg0 c256_i32
  let c4096_i32 : BitVec 32 := 4096#32
  let v3 : BitVec 32 := Scalar.addi v2 c4096_i32
  let c8192_i32 : BitVec 32 := 8192#32
  let c0_i32 : BitVec 32 := 0#32
  let v4 : BitVec 1 := Scalar.cmpi .eq c8192_i32 c0_i32
  let c1_i32 : BitVec 32 := 1#32
  let v5 : BitVec 32 := Scalar.select v4 c1_i32 c8192_i32
  let v6 : BitVec 32 := Scalar.remsi v3 v5
  let c0_i32_2 : BitVec 32 := 0#32
  let v8 : BitVec 1 := Scalar.cmpi .slt v6 c0_i32_2
  let c0_i32_3 : BitVec 32 := 0#32
  let v9 : BitVec 1 := Scalar.cmpi .slt v5 c0_i32_3
  let v10 : BitVec 1 := Scalar.xori v8 v9
  let c0_i32_1 : BitVec 32 := 0#32
  let v7 : BitVec 1 := Scalar.cmpi .ne v6 c0_i32_1
  let v11 : BitVec 1 := Scalar.andi v10 v7
  let v12 : BitVec 32 := Scalar.addi v6 v5
  let v13 : BitVec 32 := Scalar.select v11 v12 v6
  v13
def k1_off1 (i : grid1.Coords) : Fin 2 → Nat :=
  let arg0 : BitVec 32 := BitVec.ofNat 32 (i 0).val
  let c256_i32 : BitVec 32 := 256#32
  let v2 : BitVec 32 := Scalar.muli arg0 c256_i32
  let c4096_i32 : BitVec 32 := 4096#32
  let v3 : BitVec 32 := Scalar.addi v2 c4096_i32
  let c8192_i32 : BitVec 32 := 8192#32
  let c0_i32 : BitVec 32 := 0#32
  let v4 : BitVec 1 := Scalar.cmpi .eq c8192_i32 c0_i32
  let c1_i32 : BitVec 32 := 1#32
  let v5 : BitVec 32 := Scalar.select v4 c1_i32 c8192_i32
  let v6 : BitVec 32 := Scalar.remsi v3 v5
  let c0_i32_2 : BitVec 32 := 0#32
  let v8 : BitVec 1 := Scalar.cmpi .slt v6 c0_i32_2
  let c0_i32_3 : BitVec 32 := 0#32
  let v9 : BitVec 1 := Scalar.cmpi .slt v5 c0_i32_3
  let v10 : BitVec 1 := Scalar.xori v8 v9
  let c0_i32_1 : BitVec 32 := 0#32
  let v7 : BitVec 1 := Scalar.cmpi .ne v6 c0_i32_1
  let v11 : BitVec 1 := Scalar.andi v10 v7
  let v12 : BitVec 32 := Scalar.addi v6 v5
  let v13 : BitVec 32 := Scalar.select v11 v12 v6
  let v14 : BitVec 32 := v13
  let v15 : Index := Scalar.indexCast v14
  let c0_4 : Index := 0#32
  ![v15.toNat, 0]
def k1_mult2 : BitVec 32 :=
  let c0_i32_6 : BitVec 32 := 0#32
  let c2048_i32 : BitVec 32 := 2048#32
  let v24 : BitVec 32 := Scalar.muli c0_i32_6 c2048_i32
  v24
def k1_off2 (c0_i32_6 : BitVec 32) : Fin 2 → Nat :=
  let c2048_i32 : BitVec 32 := 2048#32
  let v24 : BitVec 32 := Scalar.muli c0_i32_6 c2048_i32
  let v25 : BitVec 32 := v24
  let v26 : Index := Scalar.indexCast v25
  let c0_7 : Index := 0#32
  ![v26.toNat, 0]
def k1_mult3 : BitVec 32 :=
  let c1_i32_11 : BitVec 32 := 1#32
  let c2048_i32_12 : BitVec 32 := 2048#32
  let v37 : BitVec 32 := Scalar.muli c1_i32_11 c2048_i32_12
  v37
def k1_mult4 : BitVec 32 :=
  let c2_i32 : BitVec 32 := 2#32
  let c2048_i32_17 : BitVec 32 := 2048#32
  let v50 : BitVec 32 := Scalar.muli c2_i32 c2048_i32_17
  v50
def k1_mult5 : BitVec 32 :=
  let c3_i32 : BitVec 32 := 3#32
  let c2048_i32_22 : BitVec 32 := 2048#32
  let v63 : BitVec 32 := Scalar.muli c3_i32 c2048_i32_22
  v63
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S256x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  concatenates_S4096x256_S4096x256_S8192x256_d0 : Shape.Concatenates [S4096x256, S4096x256] S8192x256 0
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  reduces_S1024x256_S1024 : S1024x256.Reduces [1] S1024
  shapeCasts_S1024_S1024x1 : S1024.ShapeCasts S1024x1
  broadcasts_S1024x1_S1024x256 : S1024x1.Broadcasts S1024x256
  bitsLt_bf16_f32 : FTy.bits .bf16 < FTy.bits .f32
  packedbf16_S1024x256_S1024x256_0_0 : (Rect.unit (s := S1024x256) ![0, 0] S1024x256.size inb_S1024x256_S1024x256_0_0).PackedRows (EltTy.packing .bf16)
  inb_S256x256_S256x256_0_0 : ∀ a, (![0, 0] : Fin 2 → Nat) a + S256x256.size a ≤ S256x256.size a
  h_S256x256 : 0 < S256x256.numel
  shapeCasts_S256x256_S256x256 : S256x256.ShapeCasts S256x256
  reduces_S256x256_S256 : S256x256.Reduces [1] S256
  shapeCasts_S256_S256x1 : S256.ShapeCasts S256x1
  h_S2048x256 : 0 < S2048x256.numel
  shapeCasts_S2048x256_S2048x256 : S2048x256.ShapeCasts S2048x256
  transposes_S2048x256_p1_0_S256x2048 : S2048x256.Transposes [1, 0] S256x2048
  reduces_S256x2048_S256 : S256x2048.Reduces [1] S256
  transposes_S256x1_p1_0_S1x256 : S256x1.Transposes [1, 0] S1x256
  inb_S1x256_S1x256_0_0 : ∀ a, (![0, 0] : Fin 2 → Nat) a + S1x256.size a ≤ S1x256.size a
  h_S1x256 : 0 < S1x256.numel
  reducesTo_S1x8192_S_d0_1 : S1x8192.ReducesTo [0, 1] S_
  h_S_ : 0 < S_.numel
  dot_S256x256_S256x2048_S256x2048_1_0_0_1_n_n_wf : DotDims.WF S256x256 S256x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .bf16 = 32 ∨ (Rect.block (s := S8192x256) S1024x256.size (cc0_transform_1 i) (hinb0_1 i)).WholeWords (EltTy.packing .bf16)
  hrank1 : 0 < grid1.rank
  k1_mult1_dvd : ∀ i : grid1.Coords, 256 ∣ (k1_mult1 i).toNat
  k1_off1_inb : ∀ i : grid1.Coords, ∀ a, (k1_off1 i) a + S256x256.size a ≤ S8192x256.size a
  k1_mult2_dvd : 2048 ∣ k1_mult2.toNat
  k1_off2_inb : ∀ (r : Fin 4), ∀ a, (k1_off2 (BitVec.ofNat 32 r.val)) a + S2048x256.size a ≤ S8192x256.size a
  k1_mult3_dvd : 2048 ∣ k1_mult3.toNat
  k1_mult4_dvd : 2048 ∣ k1_mult4.toNat
  k1_mult5_dvd : 2048 ∣ k1_mult5.toNat
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x256.size a ≤ S8192x256.size a
  hwx1_0 : ∀ i : grid1.Coords, EltTy.bits .bf16 = 32 ∨ (Rect.block (s := S8192x256) S256x256.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x256.size a ≤ S8192x256.size a
  hwx1_1 : ∀ i : grid1.Coords, EltTy.bits .bf16 = 32 ∨ (Rect.block (s := S8192x256) S8192x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x8192.size a
  hwx1_2 : ∀ i : grid1.Coords, EltTy.bits .f32 = 32 ∨ (Rect.block (s := S1x8192) S1x256.size (cc1_transform_2 i) (hinb1_2 i)).WholeWords (EltTy.packing .f32)

variable [Facts₀]

def dot_S256x256_S256x2048_S256x2048_1_0_0_1_n_n : DotDims S256x256 S256x2048 S256x2048 where
  lhsContracting := [1]
  rhsContracting := [0]
  lhsNonContracting := [0]
  rhsNonContracting := [1]
  lhsBatch := []
  rhsBatch := []
  wf := dot_S256x256_S256x2048_S256x2048_1_0_0_1_n_n_wf

abbrev win0_0 : Pipeline.Window sig grid0 :=
  Pipeline.Window.ofSpec (Memref.whole main_v0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v1) S256x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S8192x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4096x256 : Shape := ⟨2, ![4096, 256]⟩
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S256x8192 : Shape := ⟨2, ![256, 8192]⟩
abbrev S8192x8192 : Shape := ⟨2, ![8192, 8192]⟩
abbrev S4096 : Shape := ⟨1, ![4096]⟩
abbrev S4096x1 : Shape := ⟨2, ![4096, 1]⟩
abbrev S4096x2 : Shape := ⟨2, ![4096, 2]⟩

abbrev nBuf : Space → Nat
  | .hbm => 78
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S8192x256, .f32⟩
  | .hbm, ⟨3, _⟩ => ⟨S8192x256, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x256, .f32⟩
  | .hbm, ⟨12, _⟩ => ⟨S8192x256, .f32⟩
  | .hbm, ⟨13, _⟩ => ⟨S256x8192, .f32⟩
  | .hbm, ⟨14, _⟩ => ⟨S8192x8192, .f32⟩
  | .hbm, ⟨15, _⟩ => ⟨S4096, .i32⟩
  | .hbm, ⟨16, _⟩ => ⟨S_, .i32⟩
  | .hbm, ⟨17, _⟩ => ⟨S4096, .i32⟩
  | .hbm, ⟨18, _⟩ => ⟨S4096, .i32⟩
  | .hbm, ⟨19, _⟩ => ⟨S_, .i32⟩
  | .hbm, ⟨20, _⟩ => ⟨S4096, .i32⟩
  | .hbm, ⟨21, _⟩ => ⟨S4096, .i1⟩
  | .hbm, ⟨22, _⟩ => ⟨S_, .i32⟩
  | .hbm, ⟨23, _⟩ => ⟨S4096, .i32⟩
  | .hbm, ⟨24, _⟩ => ⟨S4096, .i32⟩
  | .hbm, ⟨25, _⟩ => ⟨S4096, .i32⟩
  | .hbm, ⟨26, _⟩ => ⟨S_, .i32⟩
  | .hbm, ⟨27, _⟩ => ⟨S4096, .i32⟩
  | .hbm, ⟨28, _⟩ => ⟨S4096, .i1⟩
  | .hbm, ⟨29, _⟩ => ⟨S_, .i32⟩
  | .hbm, ⟨30, _⟩ => ⟨S4096, .i32⟩
  | .hbm, ⟨31, _⟩ => ⟨S4096, .i32⟩
  | .hbm, ⟨32, _⟩ => ⟨S4096, .i32⟩
  | .hbm, ⟨33, _⟩ => ⟨S4096x1, .i32⟩
  | .hbm, ⟨34, _⟩ => ⟨S4096x1, .i32⟩
  | .hbm, ⟨35, _⟩ => ⟨S4096x2, .i32⟩
  | .hbm, ⟨36, _⟩ => ⟨S4096, .f32⟩
  | .hbm, ⟨37, _⟩ => ⟨S_, .i32⟩
  | .hbm, ⟨38, _⟩ => ⟨S4096, .i32⟩
  | .hbm, ⟨39, _⟩ => ⟨S4096, .i32⟩
  | .hbm, ⟨40, _⟩ => ⟨S_, .i32⟩
  | .hbm, ⟨41, _⟩ => ⟨S4096, .i32⟩
  | .hbm, ⟨42, _⟩ => ⟨S4096, .i1⟩
  | .hbm, ⟨43, _⟩ => ⟨S_, .i32⟩
  | .hbm, ⟨44, _⟩ => ⟨S4096, .i32⟩
  | .hbm, ⟨45, _⟩ => ⟨S4096, .i32⟩
  | .hbm, ⟨46, _⟩ => ⟨S4096, .i32⟩
  | .hbm, ⟨47, _⟩ => ⟨S_, .i32⟩
  | .hbm, ⟨48, _⟩ => ⟨S4096, .i32⟩
  | .hbm, ⟨49, _⟩ => ⟨S4096, .i1⟩
  | .hbm, ⟨50, _⟩ => ⟨S_, .i32⟩
  | .hbm, ⟨51, _⟩ => ⟨S4096, .i32⟩
  | .hbm, ⟨52, _⟩ => ⟨S4096, .i32⟩
  | .hbm, ⟨53, _⟩ => ⟨S4096, .i32⟩
  | .hbm, ⟨54, _⟩ => ⟨S4096x1, .i32⟩
  | .hbm, ⟨55, _⟩ => ⟨S4096x1, .i32⟩
  | .hbm, ⟨56, _⟩ => ⟨S4096x2, .i32⟩
  | .hbm, ⟨57, _⟩ => ⟨S4096, .f32⟩
  | .hbm, ⟨58, _⟩ => ⟨S8192, .f32⟩
  | .hbm, ⟨59, _⟩ => ⟨S_, .f32⟩
  | .hbm, ⟨60, _⟩ => ⟨S8192x8192, .f32⟩
  | .hbm, ⟨61, _⟩ => ⟨S8192x8192, .f32⟩
  | .hbm, ⟨62, _⟩ => ⟨S8192x8192, .f32⟩
  | .hbm, ⟨63, _⟩ => ⟨S_, .f32⟩
  | .hbm, ⟨64, _⟩ => ⟨S8192, .f32⟩
  | .hbm, ⟨65, _⟩ => ⟨S_, .f32⟩
  | .hbm, ⟨66, _⟩ => ⟨S8192, .f32⟩
  | .hbm, ⟨67, _⟩ => ⟨S8192, .f32⟩
  | .hbm, ⟨68, _⟩ => ⟨S_, .f32⟩
  | .hbm, ⟨69, _⟩ => ⟨S8192, .f32⟩
  | .hbm, ⟨70, _⟩ => ⟨S8192, .f32⟩
  | .hbm, ⟨71, _⟩ => ⟨S8192, .f32⟩
  | .hbm, ⟨72, _⟩ => ⟨S8192, .f32⟩
  | .hbm, ⟨73, _⟩ => ⟨S8192, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_v9 : Ref sig .tc := ⟨.hbm, 17, rfl⟩
abbrev main_v10 : Ref sig .tc := ⟨.hbm, 18, rfl⟩
abbrev main_c_0 : Ref sig .tc := ⟨.hbm, 19, rfl⟩
abbrev main_v11 : Ref sig .tc := ⟨.hbm, 20, rfl⟩
abbrev main_v12 : Ref sig .tc := ⟨.hbm, 21, rfl⟩
abbrev main_c_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_4 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_7 : Ref sig .tc := ⟨.hbm, 47, rfl⟩
abbrev main_v32 : Ref sig .tc := ⟨.hbm, 48, rfl⟩
abbrev main_v33 : Ref sig .tc := ⟨.hbm, 49, rfl⟩
abbrev main_c_8 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_9 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_10 : Ref sig .tc := ⟨.hbm, 63, rfl⟩
abbrev main_v45 : Ref sig .tc := ⟨.hbm, 64, rfl⟩
abbrev main_cst_11 : Ref sig .tc := ⟨.hbm, 65, rfl⟩
abbrev main_v46 : Ref sig .tc := ⟨.hbm, 66, rfl⟩
abbrev main_v47 : Ref sig .tc := ⟨.hbm, 67, rfl⟩
abbrev main_cst_12 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_13 : Ref sig .tc := ⟨.hbm, 74, rfl⟩
abbrev main_v53 : Ref sig .tc := ⟨.hbm, 75, rfl⟩
abbrev main_cst_14 : Ref sig .tc := ⟨.hbm, 76, rfl⟩
abbrev main_v54 : Ref sig .tc := ⟨.hbm, 77, rfl⟩

abbrev nD : Nat := 1
abbrev τ : Topo := Topo.v7x

variable {F : FTy → Type} [FloatOps F]

class Facts₀ : Prop where
  concatenates_S4096x256_S4096x256_S8192x256_d0 : Shape.Concatenates [S4096x256, S4096x256] S8192x256 0
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  transposes_S8192x256_S256x8192_1_0 : S8192x256.Transposes [1, 0] S256x8192
  bcast_S_S4096 : S_.BroadcastsInDim S4096 (![] : Fin 0 → Fin S4096.rank)
  bcast_S4096_S4096x1_0 : S4096.BroadcastsInDim S4096x1 (![0] : Fin 1 → Fin S4096x1.rank)
  concatenates_S4096x1_S4096x1_S4096x2_d1 : Shape.Concatenates [S4096x1, S4096x1] S4096x2 1
  concatenates_S4096_S4096_S8192_d0 : Shape.Concatenates [S4096, S4096] S8192 0
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  dot_S8192x256_S256x8192_S8192x8192_1_0_0_1_n_n_wf : DotDims.WF S8192x256 S256x8192 S8192x8192 [1] [0] [0] [1] [] []
  gather_S8192x8192_S4096x2_S4096_n_01_n_n_01_1_11_wf : GatherDims.WF S8192x8192 S4096x2 S4096 [] [0, 1] [] [0, 1] [] 1 ![1, 1]

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf
def gather_S8192x8192_S4096x2_S4096_n_01_n_n_01_1_11 : GatherDims S8192x8192 S4096x2 S4096 where
  offsetDims := []
  collapsedSliceDims := [0, 1]
  operandBatchingDims := []
  startIndicesBatchingDims := []
  startIndexMap := [0, 1]
  indexVectorDim := 1
  sliceSizes := ![1, 1]
  wf := gather_S8192x8192_S4096x2_S4096_n_01_n_n_01_1_11_wf

class Facts : Prop extends Facts₀ where

variable [Facts]
-- ==== Proof.KernelBody0.lean ====
/-
  The first kernel region (row normalisation) at the contents `V` the region is entered from, at any float instance:
  each of its 8 grid points loads a 1024 x 256 block of rows, and stores the block of normalised rows `k0_pay1` whole.
  What the body leaves in the output's staging buffer at a point is that one store's payload of the input block
  (`out0_1`); the input's buffer is left as found. From these the pipeline's proof data `dat0` and its body obligation.
-/
import proofs.«417884_j11132555231335_3_alg».proof.Proof.Gen.Kernel.Launch
import proofs.«417884_j11132555231335_3_alg».proof.Proof.Gen.Kernel.Skeleton
import proofs.«417884_j11132555231335_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole 1024 x 256 block as a rectangle. -/
abbrev r0_0 : Rect S1024x256 := Rect.unit (s := S1024x256) ![0, 0] S1024x256.size inb_S1024x256_S1024x256_0_0

/-- The output's staging buffer after the body, from the input block: its one store. -/
def out0_1 (x0 : Vec F S1024x256 .f32) : Vec F S1024x256 .bf16 :=
  View.canon [⟨r0_0, k0_pay1 (View.ld x0 r0_0)⟩]

/-- The store covers the buffer. -/
theorem cover0_1 (p0 : Vec F S1024x256 .bf16) (y : S1024x256.Idx) :
    ∃ pc ∈ ([⟨r0_0, p0⟩] : List (View.Piece (Elt F) S1024x256 .bf16)), y ∈ pc.1.set :=
  View.cover_of_tiled [⟨r0_0, p0⟩] S1024x256.size (by rfl) y

set_option maxHeartbeats 1000000 in
/-- The body on whole staging memrefs, the input's at read contents `x0` and the output's at anything, runs to the
    continuation holding the input's as it was and the output's at `out0_1 x0`. -/
theorem sound_kernel0 (c : Dev nD) (E : Set ℕ) (i : grid0.Coords) (arg1 : Memref sig .tc .vmem S1024x256 .f32) (harg1 : arg1.IsWhole) (arg2 : Memref sig .tc .vmem S1024x256 .bf16) (harg2 : arg2.IsWhole)
    (x0 : Vec F S1024x256 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__normalize_kernel i arg1 harg1 arg2 harg2) K := by
  simp only [cc0__normalize_kernel_eq_skeleton]; unfold cc0__normalize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The proof data of the first region on core `c`: the arrays as the region finds them; after the body at point `t`
    the input's buffer at its block and the output's at `out0_1` of it; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KernelBody1.lean ====
/-
  The second kernel region (similarities, exponentials, row losses) at the contents `V` the region is entered from, at
  any float instance. Each of its 32 grid points is handed a 256 x 256 block of normalised rows (window 0) and ALL 8192
  normalised rows (window 1, the same array, fetched once), loads from the latter the block of positive partners and
  four stretches of 2048 rows, and stores one 1 x 256 row of losses whole (window 2). What the body leaves in the
  output's staging buffer is that store's payload of the loaded pieces (`out1_2`); the inputs' buffers are left as found.
  The array behind windows 0 and 1 is one buffer: the proof data holds it at the two halves of the full share.
-/
import proofs.«417884_j11132555231335_3_alg».proof.Proof.Gen.Kernel.Launch
import proofs.«417884_j11132555231335_3_alg».proof.Proof.Gen.Kernel.Skeleton
import proofs.«417884_j11132555231335_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The rectangles the body reads and writes through: the whole block of window 0, the block of positive partners and
    the four stretches of 2048 rows of window 1, the whole row of window 2. -/
abbrev r1_q : Rect S256x256 := Rect.unit (s := S256x256) ![0, 0] S256x256.size inb_S256x256_S256x256_0_0
abbrev r1_pos (i : grid1.Coords) : Rect S8192x256 := Rect.unit (s := S8192x256) (k1_off1 i) S256x256.size (k1_off1_inb i)
abbrev r1_k (j : Fin 4) : Rect S8192x256 := Rect.unit (s := S8192x256) (k1_off2 (BitVec.ofNat 32 j.val)) S2048x256.size (k1_off2_inb j)
abbrev r1_o : Rect S1x256 := Rect.unit (s := S1x256) ![0, 0] S1x256.size inb_S1x256_S1x256_0_0

/-- The output's staging buffer after the body at the point of coordinates `i`, from the two input blocks: its one store. -/
def out1_2 (i : grid1.Coords) (x0 : Vec F S256x256 .bf16) (x1 : Vec F S8192x256 .bf16) : Vec F S1x256 .f32 :=
  View.canon [⟨r1_o, k1_pay1 (k1_pay3 (View.ld x0 r1_q) (View.ld x1 (r1_pos i)))
    (k1_pay5 (k1_pay2 (View.ld x0 r1_q)) (k1_pay4 (View.ld x0 r1_q) (View.ld x1 (r1_k 0))) (View.ld x1 (r1_k 1)) (View.ld x1 (r1_k 2)) (View.ld x1 (r1_k 3)))
    (k1_pay6 (F := F))⟩]

/-- The store covers the buffer. -/
theorem cover1_2 (p0 : Vec F S1x256 .f32) (y : S1x256.Idx) :
    ∃ pc ∈ ([⟨r1_o, p0⟩] : List (View.Piece (Elt F) S1x256 .f32)), y ∈ pc.1.set :=
  View.cover_of_tiled [⟨r1_o, p0⟩] S1x256.size (by rfl) y

set_option maxHeartbeats 4000000 in
/-- The body on whole staging memrefs, the inputs' at read contents `x0`, `x1` and the output's at anything, runs to the
    continuation holding the inputs' as they were and the output's at `out1_2 i x0 x1`. -/
theorem sound_kernel1 (c : Dev nD) (E : Set ℕ) (i : grid1.Coords) (arg1 : Memref sig .tc .vmem S256x256 .bf16) (harg1 : arg1.IsWhole) (arg2 : Memref sig .tc .vmem S8192x256 .bf16) (harg2 : arg2.IsWhole) (arg3 : Memref sig .tc .vmem S1x256 .f32) (harg3 : arg3.IsWhole)
    (x0 : Vec F S256x256 .bf16) (x1 : Vec F S8192x256 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 i x0 x1)) -∗ K ⟨⟩))
      ⊢ wp frame (wpE (defs₀ (F := F)) Variants.none c none) E (cc1__ntxent_kernel i arg1 harg1 arg2 harg2 arg3 harg3) K := by
  simp only [cc1__ntxent_kernel_eq_skeleton]; unfold cc1__ntxent_kernel_skel
  simp only [k1_part1_eq_skeleton, k1_part2_eq_skeleton]
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of the second region on core `c`: the arrays as the region finds them; after the body at point `t`
    each input's buffer at its block and the output's at `out1_2` of them; nothing owed; the one array behind
    windows 0 and 1 held at the two halves of the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (grid1.coords t) (iblk1 V c 0 t) (iblk1 V c 1 t)
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (grid1.coords t) (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KernelRun.lean ====
/-
  The run of the whole program, at any float instance: the concatenation on the host, the two kernel regions, and the
  closing sum and quotient on the host. The buffer contents at every boundary between two of these items are a fold
  from the launch memory: a host stretch applies its operations; the first region leaves the normalised rows in its
  output array; the second region leaves the row of losses in its output array and reads the normalised rows through
  two windows on ONE array, whose full share is split between the two windows on entry and joined again on exit.
  Every weakly fair execution terminates with every unscoped buffer at the last boundary's contents.
-/
import proofs.«417884_j11132555231335_3_alg».proof.Proof.KernelBody0
import proofs.«417884_j11132555231335_3_alg».proof.Proof.KernelBody1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the concatenation (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second region's exit: its output array at what the pipeline leaves, every other buffer as entered (the
    array of normalised rows is only read). -/
def W3 (c : Dev nD) : Valuation τ sig (Elt F) :=
  Function.update (W2 m ρ c) (Proc.devRef .tc main_v2) ((dat1 (V2 m ρ) c).arrAt 2 cfg1.N)
theorem W3_v2 (c : Dev nD) : W3 m ρ c (Proc.devRef .tc main_v2) = (dat1 (V2 m ρ) c).arrAt 2 cfg1.N := by
  unfold W3; exact Function.update_self ..
theorem W3_of_ne (c : Dev nD) (b : Ref sig .tc) (hb : b ≠ main_v2) :
    W3 m ρ c (Proc.devRef .tc b) = W2 m ρ c (Proc.devRef .tc b) := by
  unfold W3; exact Function.update_of_ne (StableHlo.devRef_ne_of_ne hb) ..
abbrev V3 : (c : Dev nD) → (b : Ref sig .tc) → Buf (Elt F) ((c : Thread nD τ).loc b) := fun c b => W3 m ρ c b
/-- After the closing host operations. -/
abbrev W4 : Dev nD → Valuation τ sig (Elt F) := fun c => StableHlo.after hostOps2 (W3 m ρ c)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem ops0_fresh : (hostOps0 : List (HloOp τ sig (Elt F))).Forall fun op => op.fresh = ∅ := by
  simp only [List.Forall]; repeat' constructor
theorem ops2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The first region as a segment -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The second region: one array behind two input windows -/

/-- The buffers behind the second region's arrays: the normalised rows and the row of losses. -/
theorem image_arr1 : Finset.univ.image (Pipeline.arrRef spec1) = ([main_v1, main_v2] : List (Ref sig .tc)).toFinset := by decide

/-- ENTRY, the arrays' part: the core's unscoped buffers at contents `V` are the second region's arrays at the proof
    data's entry contents — the array of normalised rows dealt to its two windows at the two halves of the full share —
    and the unscoped rest. -/
theorem arrays1_of_unscopedBufs (V : (c : Dev nD) → (b : Ref sig .tc) → Buf (Elt F) ((c : Thread nD τ).loc b)) (c : Dev nD) :
    (unscopedBufs c (V c) : sProp 𝕄) ⊢ iprop((dat1 V c).arrays ((dat1 V c).arrAt · 0) ∗ Pipeline.unscopedRest spec1 c (V c)) := by
  rw [Pipeline.unscopedBufs_split₀ cfgs 1 winFacts₀1.arr_unscoped c (V c)]
  refine sep_mono ?_ .rfl
  unfold Pipeline.arrBufs
  have h1 : Finset.univ.image (Pipeline.arrRef (cfgs 1).spec) = ([main_v1, main_v2] : List (Ref sig .tc)).toFinset := image_arr1
  rw [bigSep_eq_bigSepL_of_eq [main_v1, main_v2] h1 (by decide)]
  unfold Dat.arrays
  rw [bigSep_W1]
  simp only [bigSepL_cons_cons, bigSepL_singleton]
  have hs0 : (dat1 V c).share 0 = fullShare.left := rfl
  have hs1 : (dat1 V c).share 1 = fullShare.right := rfl
  have hs2 : (dat1 V c).share 2 = fullShare := rfl
  rw [hs0, hs1, hs2, (arr_whole1 0).set_eq_univ, (arr_whole1 2).set_eq_univ]
  show iprop((((c : Thread nD τ).loc main_v1) ↦{fullShare} V c main_v1) ∗ (((c : Thread nD τ).loc main_v2) ↦{fullShare} V c main_v2)) ⊢ iprop((((c : Thread nD τ).loc main_v1) ↦{fullShare.left} V c main_v1) ∗ (((c : Thread nD τ).loc main_v1) ↦{fullShare.right} V c main_v1)
    ∗ (((c : Thread nD τ).loc main_v2) ↦{fullShare} V c main_v2))
  iintro ⟨H1, H2⟩
  ihave Hs := (pointsTo_share (PosShare.mem_left_op_right fullShare)).1 $$ H1
  icases Hs with ⟨Hl, Hr⟩
  isplitl [Hl]
  · iexact Hl
  isplitl [Hr]
  · iexact Hr
  iexact H2

/-- EXIT, the arrays' part: the second region's arrays at their final contents and the unscoped rest at `V` are the
    core's unscoped buffers at any valuation that has the output array at what the pipeline leaves and agrees with `V`
    elsewhere. -/
theorem unscopedBufs_of_arrays1 (V V' : (c : Dev nD) → (b : Ref sig .tc) → Buf (Elt F) ((c : Thread nD τ).loc b)) (c : Dev nD)
    (h2 : V' c main_v2 = (dat1 V c).arrAt 2 cfg1.N) (hrest : ∀ b, b ≠ main_v2 → V' c b = V c b) :
    iprop((dat1 V c).arrays ((dat1 V c).arrAt · cfg1.N) ∗ Pipeline.unscopedRest spec1 c (V c)) ⊢ (unscopedBufs c (V' c) : sProp 𝕄) := by
  rw [Pipeline.unscopedBufs_split₀ cfgs 1 winFacts₀1.arr_unscoped c (V' c)]
  refine sep_mono ?_ (Entails.of_eq ?_)
  · unfold Pipeline.arrBufs
    have h1 : Finset.univ.image (Pipeline.arrRef (cfgs 1).spec) = ([main_v1, main_v2] : List (Ref sig .tc)).toFinset := image_arr1
    rw [bigSep_eq_bigSepL_of_eq [main_v1, main_v2] h1 (by decide)]
    unfold Dat.arrays
    rw [bigSep_W1]
    simp only [bigSepL_cons_cons, bigSepL_singleton]
    have hs0 : (dat1 V c).share 0 = fullShare.left := rfl
    have hs1 : (dat1 V c).share 1 = fullShare.right := rfl
    have hs2 : (dat1 V c).share 2 = fullShare := rfl
    rw [hs0, hs1, hs2, (arr_whole1 0).set_eq_univ, (arr_whole1 2).set_eq_univ, (dat1 V c).arrAt_in 0 rfl, (dat1 V c).arrAt_in 1 rfl]
    show iprop((((c : Thread nD τ).loc main_v1) ↦{fullShare.left} V c main_v1) ∗ (((c : Thread nD τ).loc main_v1) ↦{fullShare.right} V c main_v1)
        ∗ (((c : Thread nD τ).loc main_v2) ↦{fullShare} (dat1 V c).arrAt 2 cfg1.N))
      ⊢ iprop((((c : Thread nD τ).loc main_v1) ↦{fullShare} V' c main_v1) ∗ (((c : Thread nD τ).loc main_v2) ↦{fullShare} V' c main_v2))
    rw [h2, hrest main_v1 (by decide)]
    iintro ⟨Hl, Hr, H2⟩
    isplitl [Hl Hr]
    · iapply (pointsTo_share (PosShare.mem_left_op_right fullShare)).2
      isplitl [Hl] <;> iassumption
    iexact H2
  · unfold Pipeline.unscopedRest
    exact bigSep_congr fun b hb => by
      rw [hrest b fun e => (Finset.mem_sdiff.mp hb).2 (e ▸ (by decide : main_v2 ∈ Finset.univ.image (Pipeline.arrRef (cfgs 1).spec)))]

set_option backward.isDefEq.respectTransparency.types false in
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit : (unscopedBufs c (V2 m ρ c) : sProp 𝕄)
        ⊢ iprop((pdats m ρ 1 c).arrays ((pdats m ρ 1 c).arrAt · 0) ∗ Pipeline.unscopedRest spec1 c (V2 m ρ c)) :=
      arrays1_of_unscopedBufs (F := F) (V2 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N) ∗ Pipeline.unscopedRest spec1 c (V2 m ρ c))
        ⊢ (unscopedBufs c (V3 m ρ c) : sProp 𝕄) :=
      unscopedBufs_of_arrays1 (F := F) (V2 m ρ) (V3 m ρ) c (W3_v2 m ρ c) (fun b hb => W3_of_ne m ρ c b hb)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub ops0_fresh (W0 m ρ)),
    .region (reg0 m ρ),
    .region (reg1 m ρ),
    .host (hseg hostOps2 hostOps2_sub ops2_fresh (W3 m ρ)) ]

theorem main_run (c : Dev nD) : main (F := F) c = Pipeline.Seg.run (segs m ρ) := (main_chain c).trans (by chain_rfl)

set_option backward.isDefEq.respectTransparency.types false in
/-- THE RUN: every weakly fair execution terminates, nothing faulting, with every unscoped buffer of every core at
    the last boundary's contents `W4`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c) ⊢ _
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

end Cert.Kernel.Hand

end
-- ==== Proof.KernelFrame.lean ====
/-
  The frame of the kernel's program, at any float instance: no host operation and no region writes an argument array
  (the concatenation reads them; the regions neither read nor write them), so the last boundary's contents at an
  argument's buffer walk back to the launch memory, and every weakly fair execution ends with the arguments as launched.
-/
import proofs.«417884_j11132555231335_3_alg».proof.Proof.KernelRun

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- A buffer the closing host operations do not write holds after them what it held before. -/
theorem W4_of_not_written (c : Dev nD) (b : Ref sig .tc) (hb : b ∉ ([main_cst, main_v3, main_cst_0, main_v4] : List (Ref sig .tc))) :
    W4 m ρ c (Proc.devRef .tc b) = W3 m ρ c (Proc.devRef .tc b) :=
  StableHlo.after_of_forall_not_mem (b := Proc.devRef .tc b) _ _ (List.forall_iff_forall_mem.mp (by
    simp only [hostOps2, List.Forall, StableHlo.nullary_writes, StableHlo.unary_writes, StableHlo.binary_writes, StableHlo.ternary_writes, Finset.mem_singleton]
    refine ⟨?_, ?_, ?_, ?_⟩ <;> exact StableHlo.devRef_ne_of_ne (fun e => hb (by rw [e]; decide))))

/-- A buffer the concatenation does not write holds after it what it held at launch. -/
theorem W1_of_not_written (c : Dev nD) (b : Ref sig .tc) (hb : b ≠ main_v0) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.nullary_writes, StableHlo.unary_writes, StableHlo.binary_writes, StableHlo.ternary_writes, Finset.mem_singleton]
    exact StableHlo.devRef_ne_of_ne hb))

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_not_written m ρ c main_arg0 (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := W1_of_not_written m ρ c main_arg0 (by decide)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_not_written m ρ c main_arg1 (by decide)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := W1_of_not_written m ρ c main_arg1 (by decide)
    _ = m ((c : Thread nD τ).loc main_arg1) := rfl

/-- THE FRAME: every weakly fair execution terminates, nothing faulting, with both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W4_main_arg0 m ρ c),
     (h c _ (mem_uc main_arg1 (by decide))).trans (W4_main_arg1 m ρ c)⟩) (run_main m ρ)

end Cert.Kernel.Hand

end
-- ==== Proof.KernelIdealBody0.lean ====
/-
  The first kernel region (row normalisation) at the contents `V` the region is entered from, at any float instance:
  each of its 8 grid points loads a 1024 x 256 block of rows, and stores the block of normalised rows `k0_pay1` whole.
  What the body leaves in the output's staging buffer at a point is that one store's payload of the input block
  (`out0_1`); the input's buffer is left as found. From these the pipeline's proof data `dat0` and its body obligation.
-/
import proofs.«417884_j11132555231335_3_alg».proof.Proof.Gen.KernelIdeal.Launch
import proofs.«417884_j11132555231335_3_alg».proof.Proof.Gen.KernelIdeal.Skeleton
import proofs.«417884_j11132555231335_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole 1024 x 256 block as a rectangle. -/
abbrev r0_0 : Rect S1024x256 := Rect.unit (s := S1024x256) ![0, 0] S1024x256.size inb_S1024x256_S1024x256_0_0

/-- The output's staging buffer after the body, from the input block: its one store. -/
def out0_1 (x0 : Vec F S1024x256 .f32) : Vec F S1024x256 .bf16 :=
  View.canon [⟨r0_0, k0_pay1 (View.ld x0 r0_0)⟩]

/-- The store covers the buffer. -/
theorem cover0_1 (p0 : Vec F S1024x256 .bf16) (y : S1024x256.Idx) :
    ∃ pc ∈ ([⟨r0_0, p0⟩] : List (View.Piece (Elt F) S1024x256 .bf16)), y ∈ pc.1.set :=
  View.cover_of_tiled [⟨r0_0, p0⟩] S1024x256.size (by rfl) y

set_option maxHeartbeats 1000000 in
/-- The body on whole staging memrefs, the input's at read contents `x0` and the output's at anything, runs to the
    continuation holding the input's as it was and the output's at `out0_1 x0`. -/
theorem sound_kernel0 (c : Dev nD) (E : Set ℕ) (i : grid0.Coords) (arg1 : Memref sig .tc .vmem S1024x256 .f32) (harg1 : arg1.IsWhole) (arg2 : Memref sig .tc .vmem S1024x256 .bf16) (harg2 : arg2.IsWhole)
    (x0 : Vec F S1024x256 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__normalize_kernel i arg1 harg1 arg2 harg2) K := by
  simp only [cc0__normalize_kernel_eq_skeleton]; unfold cc0__normalize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The proof data of the first region on core `c`: the arrays as the region finds them; after the body at point `t`
    the input's buffer at its block and the output's at `out0_1` of it; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KernelIdealBody1.lean ====
/-
  The second kernel region (similarities, exponentials, row losses) at the contents `V` the region is entered from, at
  any float instance. Each of its 32 grid points is handed a 256 x 256 block of normalised rows (window 0) and ALL 8192
  normalised rows (window 1, the same array, fetched once), loads from the latter the block of positive partners and
  four stretches of 2048 rows, and stores one 1 x 256 row of losses whole (window 2). What the body leaves in the
  output's staging buffer is that store's payload of the loaded pieces (`out1_2`); the inputs' buffers are left as found.
  The array behind windows 0 and 1 is one buffer: the proof data holds it at the two halves of the full share.
-/
import proofs.«417884_j11132555231335_3_alg».proof.Proof.Gen.KernelIdeal.Launch
import proofs.«417884_j11132555231335_3_alg».proof.Proof.Gen.KernelIdeal.Skeleton
import proofs.«417884_j11132555231335_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The rectangles the body reads and writes through: the whole block of window 0, the block of positive partners and
    the four stretches of 2048 rows of window 1, the whole row of window 2. -/
abbrev r1_q : Rect S256x256 := Rect.unit (s := S256x256) ![0, 0] S256x256.size inb_S256x256_S256x256_0_0
abbrev r1_pos (i : grid1.Coords) : Rect S8192x256 := Rect.unit (s := S8192x256) (k1_off1 i) S256x256.size (k1_off1_inb i)
abbrev r1_k (j : Fin 4) : Rect S8192x256 := Rect.unit (s := S8192x256) (k1_off2 (BitVec.ofNat 32 j.val)) S2048x256.size (k1_off2_inb j)
abbrev r1_o : Rect S1x256 := Rect.unit (s := S1x256) ![0, 0] S1x256.size inb_S1x256_S1x256_0_0

/-- The output's staging buffer after the body at the point of coordinates `i`, from the two input blocks: its one store. -/
def out1_2 (i : grid1.Coords) (x0 : Vec F S256x256 .bf16) (x1 : Vec F S8192x256 .bf16) : Vec F S1x256 .f32 :=
  View.canon [⟨r1_o, k1_pay1 (k1_pay3 (View.ld x0 r1_q) (View.ld x1 (r1_pos i)))
    (k1_pay5 (k1_pay2 (View.ld x0 r1_q)) (k1_pay4 (View.ld x0 r1_q) (View.ld x1 (r1_k 0))) (View.ld x1 (r1_k 1)) (View.ld x1 (r1_k 2)) (View.ld x1 (r1_k 3)))
    (k1_pay6 (F := F))⟩]

/-- The store covers the buffer. -/
theorem cover1_2 (p0 : Vec F S1x256 .f32) (y : S1x256.Idx) :
    ∃ pc ∈ ([⟨r1_o, p0⟩] : List (View.Piece (Elt F) S1x256 .f32)), y ∈ pc.1.set :=
  View.cover_of_tiled [⟨r1_o, p0⟩] S1x256.size (by rfl) y

set_option maxHeartbeats 4000000 in
/-- The body on whole staging memrefs, the inputs' at read contents `x0`, `x1` and the output's at anything, runs to the
    continuation holding the inputs' as they were and the output's at `out1_2 i x0 x1`. -/
theorem sound_kernel1 (c : Dev nD) (E : Set ℕ) (i : grid1.Coords) (arg1 : Memref sig .tc .vmem S256x256 .bf16) (harg1 : arg1.IsWhole) (arg2 : Memref sig .tc .vmem S8192x256 .bf16) (harg2 : arg2.IsWhole) (arg3 : Memref sig .tc .vmem S1x256 .f32) (harg3 : arg3.IsWhole)
    (x0 : Vec F S256x256 .bf16) (x1 : Vec F S8192x256 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 i x0 x1)) -∗ K ⟨⟩))
      ⊢ wp frame (wpE (defs₀ (F := F)) Variants.none c none) E (cc1__ntxent_kernel i arg1 harg1 arg2 harg2 arg3 harg3) K := by
  simp only [cc1__ntxent_kernel_eq_skeleton]; unfold cc1__ntxent_kernel_skel
  simp only [k1_part1_eq_skeleton, k1_part2_eq_skeleton]
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of the second region on core `c`: the arrays as the region finds them; after the body at point `t`
    each input's buffer at its block and the output's at `out1_2` of them; nothing owed; the one array behind
    windows 0 and 1 held at the two halves of the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (grid1.coords t) (iblk1 V c 0 t) (iblk1 V c 1 t)
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (grid1.coords t) (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KernelIdealRun.lean ====
/-
  The run of the whole program, at any float instance: the concatenation on the host, the two kernel regions, and the
  closing sum and quotient on the host. The buffer contents at every boundary between two of these items are a fold
  from the launch memory: a host stretch applies its operations; the first region leaves the normalised rows in its
  output array; the second region leaves the row of losses in its output array and reads the normalised rows through
  two windows on ONE array, whose full share is split between the two windows on entry and joined again on exit.
  Every weakly fair execution terminates with every unscoped buffer at the last boundary's contents.
-/
import proofs.«417884_j11132555231335_3_alg».proof.Proof.KernelIdealBody0
import proofs.«417884_j11132555231335_3_alg».proof.Proof.KernelIdealBody1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the concatenation (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second region's exit: its output array at what the pipeline leaves, every other buffer as entered (the
    array of normalised rows is only read). -/
def W3 (c : Dev nD) : Valuation τ sig (Elt F) :=
  Function.update (W2 m ρ c) (Proc.devRef .tc main_v2) ((dat1 (V2 m ρ) c).arrAt 2 cfg1.N)
theorem W3_v2 (c : Dev nD) : W3 m ρ c (Proc.devRef .tc main_v2) = (dat1 (V2 m ρ) c).arrAt 2 cfg1.N := by
  unfold W3; exact Function.update_self ..
theorem W3_of_ne (c : Dev nD) (b : Ref sig .tc) (hb : b ≠ main_v2) :
    W3 m ρ c (Proc.devRef .tc b) = W2 m ρ c (Proc.devRef .tc b) := by
  unfold W3; exact Function.update_of_ne (StableHlo.devRef_ne_of_ne hb) ..
abbrev V3 : (c : Dev nD) → (b : Ref sig .tc) → Buf (Elt F) ((c : Thread nD τ).loc b) := fun c b => W3 m ρ c b
/-- After the closing host operations. -/
abbrev W4 : Dev nD → Valuation τ sig (Elt F) := fun c => StableHlo.after hostOps2 (W3 m ρ c)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem ops0_fresh : (hostOps0 : List (HloOp τ sig (Elt F))).Forall fun op => op.fresh = ∅ := by
  simp only [List.Forall]; repeat' constructor
theorem ops2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The first region as a segment -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The second region: one array behind two input windows -/

/-- The buffers behind the second region's arrays: the normalised rows and the row of losses. -/
theorem image_arr1 : Finset.univ.image (Pipeline.arrRef spec1) = ([main_v1, main_v2] : List (Ref sig .tc)).toFinset := by decide

/-- ENTRY, the arrays' part: the core's unscoped buffers at contents `V` are the second region's arrays at the proof
    data's entry contents — the array of normalised rows dealt to its two windows at the two halves of the full share —
    and the unscoped rest. -/
theorem arrays1_of_unscopedBufs (V : (c : Dev nD) → (b : Ref sig .tc) → Buf (Elt F) ((c : Thread nD τ).loc b)) (c : Dev nD) :
    (unscopedBufs c (V c) : sProp 𝕄) ⊢ iprop((dat1 V c).arrays ((dat1 V c).arrAt · 0) ∗ Pipeline.unscopedRest spec1 c (V c)) := by
  rw [Pipeline.unscopedBufs_split₀ cfgs 1 winFacts₀1.arr_unscoped c (V c)]
  refine sep_mono ?_ .rfl
  unfold Pipeline.arrBufs
  have h1 : Finset.univ.image (Pipeline.arrRef (cfgs 1).spec) = ([main_v1, main_v2] : List (Ref sig .tc)).toFinset := image_arr1
  rw [bigSep_eq_bigSepL_of_eq [main_v1, main_v2] h1 (by decide)]
  unfold Dat.arrays
  rw [bigSep_W1]
  simp only [bigSepL_cons_cons, bigSepL_singleton]
  have hs0 : (dat1 V c).share 0 = fullShare.left := rfl
  have hs1 : (dat1 V c).share 1 = fullShare.right := rfl
  have hs2 : (dat1 V c).share 2 = fullShare := rfl
  rw [hs0, hs1, hs2, (arr_whole1 0).set_eq_univ, (arr_whole1 2).set_eq_univ]
  show iprop((((c : Thread nD τ).loc main_v1) ↦{fullShare} V c main_v1) ∗ (((c : Thread nD τ).loc main_v2) ↦{fullShare} V c main_v2)) ⊢ iprop((((c : Thread nD τ).loc main_v1) ↦{fullShare.left} V c main_v1) ∗ (((c : Thread nD τ).loc main_v1) ↦{fullShare.right} V c main_v1)
    ∗ (((c : Thread nD τ).loc main_v2) ↦{fullShare} V c main_v2))
  iintro ⟨H1, H2⟩
  ihave Hs := (pointsTo_share (PosShare.mem_left_op_right fullShare)).1 $$ H1
  icases Hs with ⟨Hl, Hr⟩
  isplitl [Hl]
  · iexact Hl
  isplitl [Hr]
  · iexact Hr
  iexact H2

/-- EXIT, the arrays' part: the second region's arrays at their final contents and the unscoped rest at `V` are the
    core's unscoped buffers at any valuation that has the output array at what the pipeline leaves and agrees with `V`
    elsewhere. -/
theorem unscopedBufs_of_arrays1 (V V' : (c : Dev nD) → (b : Ref sig .tc) → Buf (Elt F) ((c : Thread nD τ).loc b)) (c : Dev nD)
    (h2 : V' c main_v2 = (dat1 V c).arrAt 2 cfg1.N) (hrest : ∀ b, b ≠ main_v2 → V' c b = V c b) :
    iprop((dat1 V c).arrays ((dat1 V c).arrAt · cfg1.N) ∗ Pipeline.unscopedRest spec1 c (V c)) ⊢ (unscopedBufs c (V' c) : sProp 𝕄) := by
  rw [Pipeline.unscopedBufs_split₀ cfgs 1 winFacts₀1.arr_unscoped c (V' c)]
  refine sep_mono ?_ (Entails.of_eq ?_)
  · unfold Pipeline.arrBufs
    have h1 : Finset.univ.image (Pipeline.arrRef (cfgs 1).spec) = ([main_v1, main_v2] : List (Ref sig .tc)).toFinset := image_arr1
    rw [bigSep_eq_bigSepL_of_eq [main_v1, main_v2] h1 (by decide)]
    unfold Dat.arrays
    rw [bigSep_W1]
    simp only [bigSepL_cons_cons, bigSepL_singleton]
    have hs0 : (dat1 V c).share 0 = fullShare.left := rfl
    have hs1 : (dat1 V c).share 1 = fullShare.right := rfl
    have hs2 : (dat1 V c).share 2 = fullShare := rfl
    rw [hs0, hs1, hs2, (arr_whole1 0).set_eq_univ, (arr_whole1 2).set_eq_univ, (dat1 V c).arrAt_in 0 rfl, (dat1 V c).arrAt_in 1 rfl]
    show iprop((((c : Thread nD τ).loc main_v1) ↦{fullShare.left} V c main_v1) ∗ (((c : Thread nD τ).loc main_v1) ↦{fullShare.right} V c main_v1)
        ∗ (((c : Thread nD τ).loc main_v2) ↦{fullShare} (dat1 V c).arrAt 2 cfg1.N))
      ⊢ iprop((((c : Thread nD τ).loc main_v1) ↦{fullShare} V' c main_v1) ∗ (((c : Thread nD τ).loc main_v2) ↦{fullShare} V' c main_v2))
    rw [h2, hrest main_v1 (by decide)]
    iintro ⟨Hl, Hr, H2⟩
    isplitl [Hl Hr]
    · iapply (pointsTo_share (PosShare.mem_left_op_right fullShare)).2
      isplitl [Hl] <;> iassumption
    iexact H2
  · unfold Pipeline.unscopedRest
    exact bigSep_congr fun b hb => by
      rw [hrest b fun e => (Finset.mem_sdiff.mp hb).2 (e ▸ (by decide : main_v2 ∈ Finset.univ.image (Pipeline.arrRef (cfgs 1).spec)))]

set_option backward.isDefEq.respectTransparency.types false in
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit : (unscopedBufs c (V2 m ρ c) : sProp 𝕄)
        ⊢ iprop((pdats m ρ 1 c).arrays ((pdats m ρ 1 c).arrAt · 0) ∗ Pipeline.unscopedRest spec1 c (V2 m ρ c)) :=
      arrays1_of_unscopedBufs (F := F) (V2 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N) ∗ Pipeline.unscopedRest spec1 c (V2 m ρ c))
        ⊢ (unscopedBufs c (V3 m ρ c) : sProp 𝕄) :=
      unscopedBufs_of_arrays1 (F := F) (V2 m ρ) (V3 m ρ) c (W3_v2 m ρ c) (fun b hb => W3_of_ne m ρ c b hb)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub ops0_fresh (W0 m ρ)),
    .region (reg0 m ρ),
    .region (reg1 m ρ),
    .host (hseg hostOps2 hostOps2_sub ops2_fresh (W3 m ρ)) ]

theorem main_run (c : Dev nD) : main (F := F) c = Pipeline.Seg.run (segs m ρ) := (main_chain c).trans (by chain_rfl)

set_option backward.isDefEq.respectTransparency.types false in
/-- THE RUN: every weakly fair execution terminates, nothing faulting, with every unscoped buffer of every core at
    the last boundary's contents `W4`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c) ⊢ _
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

end Cert.KernelIdeal.Hand

end
-- ==== Proof.KernelIdealFrame.lean ====
/-
  The frame of the kernel's program, at any float instance: no host operation and no region writes an argument array
  (the concatenation reads them; the regions neither read nor write them), so the last boundary's contents at an
  argument's buffer walk back to the launch memory, and every weakly fair execution ends with the arguments as launched.
-/
import proofs.«417884_j11132555231335_3_alg».proof.Proof.KernelIdealRun

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)

/-- A buffer the closing host operations do not write holds after them what it held before. -/
theorem W4_of_not_written (c : Dev nD) (b : Ref sig .tc) (hb : b ∉ ([main_cst, main_v3, main_cst_0, main_v4] : List (Ref sig .tc))) :
    W4 m ρ c (Proc.devRef .tc b) = W3 m ρ c (Proc.devRef .tc b) :=
  StableHlo.after_of_forall_not_mem (b := Proc.devRef .tc b) _ _ (List.forall_iff_forall_mem.mp (by
    simp only [hostOps2, List.Forall, StableHlo.nullary_writes, StableHlo.unary_writes, StableHlo.binary_writes, StableHlo.ternary_writes, Finset.mem_singleton]
    refine ⟨?_, ?_, ?_, ?_⟩ <;> exact StableHlo.devRef_ne_of_ne (fun e => hb (by rw [e]; decide))))

/-- A buffer the concatenation does not write holds after it what it held at launch. -/
theorem W1_of_not_written (c : Dev nD) (b : Ref sig .tc) (hb : b ≠ main_v0) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.nullary_writes, StableHlo.unary_writes, StableHlo.binary_writes, StableHlo.ternary_writes, Finset.mem_singleton]
    exact StableHlo.devRef_ne_of_ne hb))

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_not_written m ρ c main_arg0 (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := W1_of_not_written m ρ c main_arg0 (by decide)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_not_written m ρ c main_arg1 (by decide)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := W1_of_not_written m ρ c main_arg1 (by decide)
    _ = m ((c : Thread nD τ).loc main_arg1) := rfl

/-- THE FRAME: every weakly fair execution terminates, nothing faulting, with both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W4_main_arg0 m ρ c),
     (h c _ (mem_uc main_arg1 (by decide))).trans (W4_main_arg1 m ρ c)⟩) (run_main m ρ)

end Cert.KernelIdeal.Hand

end
-- ==== Proof.Spec.lean ====
/-
  The contrastive loss both programs compute, as ONE function of the stacked rows `z : Fin 8192 → Fin 256 → EReal`
  (row r of the 8192 x 256 array of both halves), over the extended reals:

    nrm z r    = max (sqrt (Σ_k z r k · z r k)) ε                     the guarded row norm
    zn z r d   = z r d / nrm z r                                       the normalised rows
    sim z r s  = Σ_d zn z r d · zn z s d                                cosine similarity of rows r and s
    partner r  = (r + 4096) mod 8192                                    the positive pair of row r

  The kernel scales a similarity by the reciprocal `tK` of the temperature and takes the mean of the exponentials with
  the factor 2⁻¹³; the reference divides by the temperature `tD` and by 8192. With `tK = 1 / tD` the two row losses
  agree on every extended real (a quotient by a nonzero real is the product with its reciprocal), hence the two means.
-/
import Idealize.ShloMosaic.PureOps.Ideal
import Idealize.ShloMosaic.PureOps.Ideal.Laws

noncomputable section

open scoped BigOperators

namespace Cert.Spec

open Idealize.ShloMosaic

/-- The norm guard ε, the f32 word of 1e-8. -/
abbrev epsv : EReal := Ideal.ofBits .f32 0x322BCC77#32
/-- The temperature as the reference holds it: the f32 word of 0.1, the rational 13421773 / 2²⁷. -/
abbrev tD : EReal := Ideal.ofBits .f32 0x3DCCCCCD#32
/-- The row count 8192 as the f32 word both programs divide by. -/
abbrev n8192 : EReal := Ideal.ofBits .f32 0x46000000#32
/-- 2⁻¹³, the f32 word the kernel multiplies the sum of exponentials by. -/
abbrev inv8192 : EReal := Ideal.ofBits .f32 0x39000000#32
/-- The kernel's scale: the exact reciprocal of the reference's temperature word. -/
abbrev tK : EReal := ((134217728 / 13421773 : ℝ) : EReal)

variable (z : Fin 8192 → Fin 256 → EReal)

/-- The guarded norm of row `r`. -/
def nrm (r : Fin 8192) : EReal := max (Ideal.sqrt (∑ k : Fin 256, z r k * z r k)) epsv
/-- Row `r` normalised. -/
def zn (r : Fin 8192) (d : Fin 256) : EReal := Ideal.div (z r d) (nrm z r)
/-- The similarity of rows `r` and `s`. -/
def sim (r s : Fin 8192) : EReal := ∑ d : Fin 256, zn z r d * zn z s d
/-- The positive pair of row `r`: the same sample in the other half. -/
def partner (r : Fin 8192) : Fin 8192 := ⟨(r.val + 4096) % 8192, Nat.mod_lt _ (by norm_num)⟩

/-- Row `r`'s loss as the kernel computes it. -/
def rowK (r : Fin 8192) : EReal :=
  0 - (sim z r (partner r) * tK - Ideal.log ((∑ s : Fin 8192, Ideal.exp (sim z r s * tK)) * inv8192))
/-- Row `r`'s loss as the reference computes it. -/
def rowR (r : Fin 8192) : EReal :=
  -(Ideal.div (sim z r (partner r)) tD - Ideal.log (Ideal.div (∑ s : Fin 8192, Ideal.exp (Ideal.div (sim z r s) tD)) n8192))

/-- The mean loss, kernel form and reference form. -/
def lossK : EReal := Ideal.div (∑ r : Fin 8192, rowK z r) n8192
def lossR : EReal := Ideal.div (∑ r : Fin 8192, rowR z r) n8192

/-- The reference's temperature word is the rational 13421773 / 2²⁷. -/
theorem tD_eq : tD = ((13421773 / 134217728 : ℝ) : EReal) := by
  simp [Ideal.ofBits, Ideal.ieee, -EReal.coe_mul]; norm_num

/-- The row-count word is the real 8192. -/
theorem n8192_eq : n8192 = ((8192 : ℝ) : EReal) := by
  simp [Ideal.ofBits, Ideal.ieee, -EReal.coe_mul]; norm_num

/-- The kernel's factor word is the real 1 / 8192. -/
theorem inv8192_eq : inv8192 = ((1 / 8192 : ℝ) : EReal) := by
  simp [Ideal.ofBits, Ideal.ieee, -EReal.coe_mul]; norm_num

/-- A quotient by the temperature word is the product with the kernel's scale, on every extended real. -/
theorem div_tD (x : EReal) : Ideal.div x tD = x * tK := by
  rw [tD_eq, Ideal.div_coe (by norm_num) x]
  norm_num

/-- A quotient by the row-count word is the product with the kernel's factor word, on every extended real. -/
theorem div_n8192 (x : EReal) : Ideal.div x n8192 = x * inv8192 := by
  rw [n8192_eq, inv8192_eq, Ideal.div_coe (by norm_num) x]

/-- The two row losses agree. -/
theorem rowK_eq_rowR (r : Fin 8192) : rowK z r = rowR z r := by
  unfold rowK rowR
  simp only [div_tD, div_n8192]
  rw [zero_sub]

/-- The two means agree. -/
theorem lossK_eq_lossR : lossK z = lossR z := by
  unfold lossK lossR
  rw [Finset.sum_congr rfl fun r _ => rowK_eq_rowR z r]

/-- A sum over four equal consecutive stretches, for a general stretch length. -/
theorem sum_four (n : ℕ) (f : Fin (n + n + n + n) → EReal) :
    (∑ c : Fin n, f ⟨c.val, by omega⟩) + (∑ c : Fin n, f ⟨n + c.val, by omega⟩)
        + (∑ c : Fin n, f ⟨n + n + c.val, by omega⟩) + (∑ c : Fin n, f ⟨n + n + n + c.val, by omega⟩)
      = ∑ s, f s := by
  rw [Fin.sum_univ_add, Fin.sum_univ_add, Fin.sum_univ_add]
  rfl

/-- A sum over 8192 columns taken in four consecutive stretches of 2048, accumulated from zero left to right. -/
theorem sum_chunks (f : Fin 8192 → EReal) :
    ((((0 : EReal) + ∑ c : Fin 2048, f ⟨c.val, by omega⟩) + ∑ c : Fin 2048, f ⟨2048 + c.val, by omega⟩)
        + ∑ c : Fin 2048, f ⟨4096 + c.val, by omega⟩) + ∑ c : Fin 2048, f ⟨6144 + c.val, by omega⟩
      = ∑ s : Fin 8192, f s := by
  rw [zero_add]
  exact sum_four 2048 f

end Cert.Spec

end
-- ==== Proof.KernelValue0.lean ====
/-
  What the first kernel region leaves in its output array, at the ideal instance: entry (r, d) is row r of the array it
  was handed, divided by the row's guarded norm — the specification's `zn` of the rows.
-/
import proofs.«417884_j11132555231335_3_alg».proof.Proof.KernelIdealBody0
import proofs.«417884_j11132555231335_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The rows of an 8192 x 256 array of extended reals. -/
def rowsOf (z : S8192x256.Idx → EReal) : Fin 8192 → Fin 256 → EReal := fun r d => z (ix2 r d)

theorem zeros2 : (![0, 0] : Fin 2 → Nat) = fun _ => 0 := by
  funext a; fin_cases a <;> rfl

/-- A length-`a` vector cast to an `a × 1` column reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The payload at an index. -/
theorem k0_pay1_apply (x0 : Vec Ideal S1024x256 .f32) (p : Fin 1024) (q : Fin 256) :
    k0_pay1 (F := Ideal) x0 (ix2 p q)
      = Ideal.div (x0 (ix2 p q)) (max (Ideal.sqrt (∑ k : Fin 256, x0 (ix2 p k) * x0 (ix2 p k))) Cert.Spec.epsv) := by
  unfold k0_pay1
  rw [shapeCast_self]
  show Ideal.div (x0 (ix2 p q)) (broadcastTo S1024x256 _ broadcasts_S1024x1_S1024x256 (ix2 p q)) = _
  refine congrArg (Ideal.div (x0 (ix2 p q))) ?_
  refine (broadcastTo_a1_ab_apply _ _ p q).trans ?_
  show max (Ideal.sqrt (shapeCast S1024x1 _ shapeCasts_S1024_S1024x1 (ix2 p (0 : Fin 1)))) (Ideal.ofBits .f32 0x322BCC77#32) = _
  refine congrArg (fun s => max (Ideal.sqrt s) Cert.Spec.epsv) ?_
  refine (shapeCast_a_a1_apply _ _ p 0).trans ?_
  refine (Ideal.multiReduction_add_single _ _ _ _ _ (ix1 p)).trans ?_
  refine Finset.sum_congr rfl fun k _ => ?_
  have hl : reduces_S1024x256_S1024.lift (ix1 p) k = ix2 p k := by
    funext a
    match a with
    | ⟨0, _⟩ => exact Fin.ext rfl
    | ⟨1, _⟩ => exact Fin.ext rfl
  rw [mulf_apply, hl]
  rfl

/-- The body's stored block at an index: the entry over its row's guarded norm. -/
theorem out0_1_apply (x0 : Vec Ideal S1024x256 .f32) (p : Fin 1024) (q : Fin 256) :
    out0_1 (F := Ideal) x0 (ix2 p q)
      = Ideal.div (x0 (ix2 p q)) (max (Ideal.sqrt (∑ k : Fin 256, x0 (ix2 p k) * x0 (ix2 p k))) Cert.Spec.epsv) := by
  unfold out0_1
  rw [View.canon_unit_zero zeros2, View.ld_unit_zero (S := S1024x256) zeros2]
  exact k0_pay1_apply x0 p q

/-- The normalised rows as one function of the array's index. -/
def G0 (z : S8192x256.Idx → EReal) : S8192x256.Idx → EReal :=
  fun j => Cert.Spec.zn (rowsOf z) ⟨(j 0).val, idx2_lt0 j⟩ ⟨(j 1).val, idx2_lt1 j⟩

theorem G0_apply (z : S8192x256.Idx → EReal) (r : Fin 8192) (d : Fin 256) :
    G0 z (ix2 r d) = Cert.Spec.zn (rowsOf z) r d := rfl

/-- A block whose rows are rows `1024 n …` of the array stores the normalised rows of the array at those rows. -/
theorem block_entry (x0 : Vec Ideal S1024x256 .f32) (z : S8192x256.Idx → EReal) (n : Nat) (hn : n < 8)
    (hx : ∀ (p : Fin 1024) (q : Fin 256), x0 (ix2 p q) = z (ix2 (⟨1024 * n + p.val, by omega⟩ : Fin 8192) q))
    (p : Fin 1024) (q : Fin 256) :
    out0_1 (F := Ideal) x0 (ix2 p q) = G0 z (ix2 (⟨1024 * n + p.val, by omega⟩ : Fin 8192) q) := by
  rw [out0_1_apply, G0_apply]
  unfold Cert.Spec.zn Cert.Spec.nrm rowsOf
  simp only [hx]

/-- The printed index maps over the grid: block `t` of either window starts at row `1024 t`, column 0. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The input block at point `t` is rows `1024 t … 1024 t + 1023` of the input array. -/
theorem iblk0_apply (c : Dev nD) (t : Fin cfg0.N) (x : S1024x256.Idx) (k : S8192x256.Idx)
    (hk0 : (k 0).val = 1024 * t.val + (x 0).val) (hk1 : (k 1).val = (x 1).val) :
    (iblk0 (F := Ideal) V c 0 t : Vec Ideal S1024x256 .f32) x = (V c main_v0 : S8192x256.Idx → EReal) k := by
  obtain ⟨h0, h1, -, -⟩ := idx_facts0 t
  unfold iblk0
  rw [View.read_apply]
  show V c main_v0 _ = V c main_v0 _
  congr 1
  funext a
  apply Fin.ext
  match a with
  | ⟨0, _⟩ => show win0_0.index t 0 * 1024 + 1 * (x 0).val = (k 0).val; rw [h0, hk0]; omega
  | ⟨1, _⟩ => show win0_0.index t 1 * 256 + 1 * (x 1).val = (k 1).val; rw [h1, hk1]; omega

/-- The stored block of point `t` at `(p, q)` is the normalised rows at the array index with row `1024 t + p`, column `q`. -/
theorem flushed_entry (c : Dev nD) (t : Fin cfg0.N) (p : Fin 1024) (q : Fin 256) (i : S8192x256.Idx)
    (hi0 : (i 0).val = 1024 * t.val + p.val) (hi1 : (i 1).val = q.val) :
    out0_1 (F := Ideal) (iblk0 V c 0 t) (ix2 p q) = G0 (V c main_v0 : S8192x256.Idx → EReal) i := by
  have ht : t.val < 8 := by have := t.isLt; have hN : cfg0.N = 8 := N_0; omega
  have hb : 1024 * t.val + p.val < 8192 := by clear hi0 hi1; have hp : p.val < 1024 := p.isLt; omega
  obtain rfl : i = ix2 (⟨1024 * t.val + p.val, hb⟩ : Fin 8192) q := by
    funext a
    match a with
    | ⟨0, _⟩ => exact Fin.ext hi0
    | ⟨1, _⟩ => exact Fin.ext hi1
  exact block_entry _ _ t.val ht (fun p' q' => iblk0_apply V c t (ix2 p' q') _ rfl rfl) p q

/-- What point `t` writes back is block `t` of the normalised rows. -/
theorem flushed0_eq (c : Dev nD) (t : Fin cfg0.N) :
    (dat0 (F := Ideal) V c).flushed 1 t
      = ((cfg0.win 1).blk t).view.read (Elt Ideal) (G0 (V c main_v0 : S8192x256.Idx → EReal)) := by
  show (cfg0.win 1).cut (grid0.coords t) ((dat0 (F := Ideal) V c).after 1 t) = _
  rw [after0_1]
  funext y
  have hy0 : (y 0).val < 1024 := (y 0).isLt
  have hy1 : (y 1).val < 256 := (y 1).isLt
  obtain ⟨-, -, h2, h3⟩ := idx_facts0 t
  have e : (cfg0.win 1).xinj (grid0.coords t) y = ix2 (⟨(y 0).val, hy0⟩ : Fin 1024) (⟨(y 1).val, hy1⟩ : Fin 256) := by
    funext a
    match a with
    | ⟨0, _⟩ => rfl
    | ⟨1, _⟩ => rfl
  rw [View.read_apply]
  refine (congrArg (out0_1 (F := Ideal) (iblk0 V c 0 t)) e).trans ?_
  refine flushed_entry V c t ⟨(y 0).val, hy0⟩ ⟨(y 1).val, hy1⟩ _ ?_ ?_
  · show win0_1.index t (0 : Fin 2) * 1024 + 1 * (y 0).val = 1024 * t.val + (y 0).val
    rw [h2]; omega
  · show win0_1.index t (1 : Fin 2) * 256 + 1 * (y 1).val = (y 1).val
    rw [h3]; omega

/-- Every index of the output array lies in the block of the point its row names. -/
theorem cover0 (i : S8192x256.Idx) :
    ∃ t : Fin cfg0.N, (cfg0.win 1).flush t = true ∧ i ∈ ((cfg0.win 1).blk t).view.set := by
  have hi0 : (i 0).val < 8192 := (i 0).isLt
  have hi1 : (i 1).val < 256 := (i 1).isLt
  have hN : cfg0.N = 8 := N_0
  obtain ⟨t, ht⟩ : ∃ t : Fin cfg0.N, t.val = (i 0).val / 1024 := ⟨⟨(i 0).val / 1024, by rw [hN]; omega⟩, rfl⟩
  obtain ⟨-, -, h2, h3⟩ := idx_facts0 t
  refine ⟨t, flush0_1 t, ?_⟩
  show i ∈ ((View.whole main_v1).slice (win0_1.rect t)).set
  rw [View.set_slice_whole, Rect.mem_set_unit]
  intro a
  match a with
  | ⟨0, _⟩ =>
    show win0_1.index t (0 : Fin 2) * 1024 ≤ (i 0).val ∧ (i 0).val < win0_1.index t (0 : Fin 2) * 1024 + 1024
    rw [h2, ht]; omega
  | ⟨1, _⟩ =>
    show win0_1.index t (1 : Fin 2) * 256 ≤ (i 1).val ∧ (i 1).val < win0_1.index t (1 : Fin 2) * 256 + 256
    rw [h3]; omega

/-- The output array after the region: the normalised rows of the array the region was handed. -/
theorem final0 (c : Dev nD) (r : Fin 8192) (d : Fin 256) :
    ((dat0 (F := Ideal) V c).arrAt 1 cfg0.N : S8192x256.Idx → EReal) (ix2 r d)
      = Cert.Spec.zn (rowsOf (V c main_v0 : S8192x256.Idx → EReal)) r d := by
  have h := (dat0 (F := Ideal) V c).arrAt_eq_of_cover 1 (G0 (V c main_v0 : S8192x256.Idx → EReal))
    (fun t _ => flushed0_eq V c t) cover0
  rw [h, G0_apply]

end Cert.KernelIdeal.Hand

end
-- ==== Proof.KernelValue1A.lean ====
/-
  The arithmetic of the second kernel region read one entry at a time, at the ideal instance, over plain blocks of
  numbers (no program state): a lane sum of a 256 x 256 or 256 x 2048 block at a row, a column cast, the product of
  a 256 x 256 block with the transpose of a 2048 x 256 block, and from them one stretch's column of sums of
  exponentials.
-/
import proofs.«417884_j11132555231335_3_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.SL.Sem Idealize.ShloMosaic.ValueIdx

/-- A vector of 256 entries cast to a 256 x 1 column reads, at (p, 0), its entry p. -/
theorem col_apply (x : FVec Ideal S256 .f32) (h : S256.ShapeCasts S256x1) (p : Fin 256) :
    shapeCast S256x1 x h (ix2 p (0 : Fin 1)) = x (ix1 p) :=
  shapeCast_apply x h _ _ (by
    rw [Shape.rowMajor_val_one, Shape.rowMajor_val_two]
    show p.val = p.val * 1 + 0
    omega)

/-- The sum along the lanes of a 256 x 256 block, at row p: the sum over d of its entries (p, d). -/
theorem lane256_apply (src : FVec Ideal S256x256 .f32) (h : S256x256.Reduces [1] S256) (hφ : FKind.Formats .f32)
    (hacc : (0x00000000#32 : BitVec 32) = FKind.add.neutral .f32 hφ) (p : Fin 256) :
    multiReduction .add [1] S256 src 0x00000000#32 h hφ hacc (ix1 p) = ∑ d : Fin 256, src (ix2 p d) := by
  refine (Ideal.multiReduction_add_single src 0x00000000#32 h hφ hacc (ix1 p)).trans ?_
  refine Finset.sum_congr rfl fun d _ => congrArg src (funext fun a => Fin.ext ?_)
  match a with
  | ⟨0, _⟩ => rfl
  | ⟨1, _⟩ => rfl

/-- The sum along the lanes of a 256 x 2048 block, at row p: the sum over c of its entries (p, c). -/
theorem lane2048_apply (src : FVec Ideal S256x2048 .f32) (h : S256x2048.Reduces [1] S256) (hφ : FKind.Formats .f32)
    (hacc : (0x00000000#32 : BitVec 32) = FKind.add.neutral .f32 hφ) (p : Fin 256) :
    multiReduction .add [1] S256 src 0x00000000#32 h hφ hacc (ix1 p) = ∑ c : Fin 2048, src (ix2 p c) := by
  refine (Ideal.multiReduction_add_single src 0x00000000#32 h hφ hacc (ix1 p)).trans ?_
  refine Finset.sum_congr rfl fun c _ => congrArg src (funext fun a => Fin.ext ?_)
  match a with
  | ⟨0, _⟩ => rfl
  | ⟨1, _⟩ => rfl

/-! ## The product of a 256 x 256 block with a 256 x 2048 block, at an entry -/

theorem lhs_mm_0 (i : S256x2048.Idx) (q : dot_S256x256_S256x2048_S256x2048_1_0_0_1_n_n.contr.Idx) :
    (dot_S256x256_S256x2048_S256x2048_1_0_0_1_n_n.lhsIdx i q 0).val = (i 0).val := by
  unfold DotDims.lhsIdx
  rw [dif_neg (show ¬(0 : Fin S256x256.rank) ∈ dot_S256x256_S256x2048_S256x2048_1_0_0_1_n_n.lhsBatch by decide), dif_pos (show (0 : Fin S256x256.rank) ∈ dot_S256x256_S256x2048_S256x2048_1_0_0_1_n_n.lhsNonContracting by decide)]
  rfl
theorem lhs_mm_1 (i : S256x2048.Idx) (q : dot_S256x256_S256x2048_S256x2048_1_0_0_1_n_n.contr.Idx) :
    (dot_S256x256_S256x2048_S256x2048_1_0_0_1_n_n.lhsIdx i q 1).val = (q ⟨0, by decide⟩).val :=
  dot_S256x256_S256x2048_S256x2048_1_0_0_1_n_n.lhsIdx_val_of_single rfl i q
theorem rhs_mm_0 (i : S256x2048.Idx) (q : dot_S256x256_S256x2048_S256x2048_1_0_0_1_n_n.contr.Idx) :
    (dot_S256x256_S256x2048_S256x2048_1_0_0_1_n_n.rhsIdx i q 0).val = (q ⟨0, by decide⟩).val :=
  dot_S256x256_S256x2048_S256x2048_1_0_0_1_n_n.rhsIdx_val_of_single rfl i q
theorem rhs_mm_1 (i : S256x2048.Idx) (q : dot_S256x256_S256x2048_S256x2048_1_0_0_1_n_n.contr.Idx) :
    (dot_S256x256_S256x2048_S256x2048_1_0_0_1_n_n.rhsIdx i q 1).val = (i 1).val := by
  unfold DotDims.rhsIdx
  rw [dif_neg (show ¬(1 : Fin S256x2048.rank) ∈ dot_S256x256_S256x2048_S256x2048_1_0_0_1_n_n.rhsBatch by decide), dif_pos (show (1 : Fin S256x2048.rank) ∈ dot_S256x256_S256x2048_S256x2048_1_0_0_1_n_n.rhsNonContracting by decide)]
  rfl

/-- The product accumulated into the zero block, at entry (p, c): the sum over d of a (p, d) times b (d, c). -/
theorem mm_apply (a : FVec Ideal S256x256 .bf16) (b : FVec Ideal S256x2048 .bf16) (p : Fin 256) (c : Fin 2048) :
    matmul dot_S256x256_S256x2048_S256x2048_1_0_0_1_n_n none a b (constant (F := Ideal) S256x2048 .f32 0x00000000#32) (ix2 p c)
      = ∑ d : Fin 256, a (ix2 p d) * b (ix2 d c) := by
  simp only [matmul]
  rw [Ideal.matmul_constant_zero_apply, ← Equiv.sum_comp (ValueIdx.contrEquiv1 dot_S256x256_S256x2048_S256x2048_1_0_0_1_n_n 256 rfl rfl).symm]
  refine Finset.sum_congr rfl fun k _ => ?_
  have hk := ValueIdx.contrEquiv1_symm_val dot_S256x256_S256x2048_S256x2048_1_0_0_1_n_n 256 rfl rfl k
  have el : dot_S256x256_S256x2048_S256x2048_1_0_0_1_n_n.lhsIdx (ix2 p c) ((ValueIdx.contrEquiv1 dot_S256x256_S256x2048_S256x2048_1_0_0_1_n_n 256 rfl rfl).symm k) = ix2 p k := funext fun a => Fin.ext (by
    match a with
    | ⟨0, _⟩ => exact lhs_mm_0 _ _
    | ⟨1, _⟩ => exact (lhs_mm_1 _ _).trans hk)
  have er : dot_S256x256_S256x2048_S256x2048_1_0_0_1_n_n.rhsIdx (ix2 p c) ((ValueIdx.contrEquiv1 dot_S256x256_S256x2048_S256x2048_1_0_0_1_n_n 256 rfl rfl).symm k) = ix2 k c := funext fun a => Fin.ext (by
    match a with
    | ⟨0, _⟩ => exact (rhs_mm_0 _ _).trans hk
    | ⟨1, _⟩ => exact rhs_mm_1 _ _)
  rw [el, er]

/-! ## One stretch of 2048 rows: the column of sums of exponentials -/

/-- The column a stretch of 2048 rows `xk` adds to the running sum, as the kernel computes it from the block `v1` of
    256 rows and the scale `t`: row p holds the sum over the stretch's rows c of exp (⟨row p of v1, row c of xk⟩ · t). -/
def chunkCol (t : Ideal .f32) (v1 : FVec Ideal S256x256 .bf16) (xk : Vec Ideal S2048x256 .bf16) : FVec Ideal S256x1 .f32 :=
  shapeCast S256x1
    (multiReduction .add [1] S256
      (exp (mulf
        (matmul dot_S256x256_S256x2048_S256x2048_1_0_0_1_n_n none v1
          (transpose S256x2048 [1, 0] (shapeCast S2048x256 xk shapeCasts_S2048x256_S2048x256 : FVec Ideal S2048x256 .bf16)
            transposes_S2048x256_p1_0_S256x2048 : FVec Ideal S256x2048 .bf16)
          (constant (F := Ideal) S256x2048 .f32 0x00000000#32))
        (broadcast S256x2048 t)))
      0x00000000#32 reduces_S256x2048_S256 (.inl rfl) rfl)
    shapeCasts_S256_S256x1

theorem chunkCol_apply (t : Ideal .f32) (v1 : FVec Ideal S256x256 .bf16) (xk : Vec Ideal S2048x256 .bf16) (p : Fin 256) :
    chunkCol t v1 xk (ix2 p (0 : Fin 1))
      = ∑ c : Fin 2048, Ideal.exp ((∑ d : Fin 256, v1 (ix2 p d) * xk (ix2 c d)) * t) := by
  unfold chunkCol
  refine (col_apply _ _ p).trans ?_
  refine (lane2048_apply _ _ _ _ p).trans ?_
  refine Finset.sum_congr rfl fun c _ => ?_
  refine congrArg (fun s : EReal => Ideal.exp (s * t)) ?_
  refine (mm_apply _ _ p c).trans ?_
  refine Finset.sum_congr rfl fun d _ => congrArg (v1 (ix2 p d) * ·) ?_
  refine (transpose_ix2_apply _ _ d c).trans ?_
  rw [shapeCast_self]

end Cert.KernelIdeal.Hand

end
-- ==== Proof.KernelValue1B.lean ====
/-
  The payloads of the second kernel region read one entry at a time, at the ideal instance, over plain blocks of
  numbers: the similarity with the positive partner (a lane sum of a product of two 256 x 256 blocks), the running sum
  of exponentials over the four stretches of 2048 rows and its mean, and the stored row: entry (0, p) is
  0 - (pos_p · t - log (mean_p)), `t` the named reciprocal of the temperature.
-/
import proofs.«417884_j11132555231335_3_alg».proof.Proof.KernelValue1A

set_option maxRecDepth 16384

noncomputable section

open scoped BigOperators

namespace Cert.KernelIdeal.Hand

open Cert.KernelIdeal Cert.KernelIdeal.Gen
open Idealize.ShloMosaic Idealize.ShloMosaic.TcCoe Idealize.SL.Sem Idealize.ShloMosaic.ValueIdx

/-- The named reciprocal of the temperature, as the payloads spell it. -/
abbrev tN : Ideal .f32 := Named.named (F := Ideal) Cert.KernelIdeal.κ "inv_t" (φ := .f32) 0x41200000#32

/-- The block of 256 rows cast to its own shape is itself. -/
theorem pay2_eq (v0 : Vec Ideal S256x256 .bf16) : k1_pay2 (F := Ideal) v0 = v0 := by
  unfold k1_pay2
  exact shapeCast_self _ _

/-- The similarity column: row p holds the sum over d of v0 (p, d) · v16 (p, d). -/
theorem pay3_apply (v0 v16 : Vec Ideal S256x256 .bf16) (p : Fin 256) :
    k1_pay3 (F := Ideal) v0 v16 (ix2 p (0 : Fin 1)) = ∑ d : Fin 256, v0 (ix2 p d) * v16 (ix2 p d) := by
  unfold k1_pay3
  refine (col_apply _ _ p).trans ?_
  refine (lane256_apply _ _ _ _ p).trans ?_
  refine Finset.sum_congr rfl fun d _ => ?_
  show k1_pay2 (F := Ideal) v0 (ix2 p d) * shapeCast S256x256 v16 shapeCasts_S256x256_S256x256 (ix2 p d) = _
  rw [pay2_eq, shapeCast_self]

/-- The first stretch's payload is the zero column plus the stretch's column. -/
theorem pay4_eq (v0 : Vec Ideal S256x256 .bf16) (v27 : Vec Ideal S2048x256 .bf16) :
    k1_pay4 (F := Ideal) v0 v27
      = addf (broadcast S256x1 (Scalar.ofBits (F := Ideal) .f32 0x00000000#32)) (chunkCol tN (k1_pay2 (F := Ideal) v0) v27) := rfl

theorem pay4_apply (v0 : Vec Ideal S256x256 .bf16) (v27 : Vec Ideal S2048x256 .bf16) (p : Fin 256) :
    k1_pay4 (F := Ideal) v0 v27 (ix2 p (0 : Fin 1))
      = 0 + ∑ c : Fin 2048, Ideal.exp ((∑ d : Fin 256, v0 (ix2 p d) * v27 (ix2 c d)) * tN) := by
  rw [pay4_eq, pay2_eq]
  show Ideal.ofBits .f32 0x00000000#32 + chunkCol tN v0 v27 (ix2 p (0 : Fin 1)) = _
  rw [Ideal.ofBits_zero_f32, chunkCol_apply]

/-- The other three stretches' payload: the running sum with their three columns added, times the 2⁻¹³ word. -/
theorem pay5_eq (v1 : FVec Ideal S256x256 .bf16) (v36 : FVec Ideal S256x1 .f32) (v40 v53 v66 : Vec Ideal S2048x256 .bf16) :
    k1_pay5 (F := Ideal) v1 v36 v40 v53 v66
      = mulf (addf (addf (addf v36 (chunkCol tN v1 v40)) (chunkCol tN v1 v53)) (chunkCol tN v1 v66))
          (broadcast S256x1 (Scalar.ofBits (F := Ideal) .f32 0x39000000#32)) := rfl

theorem pay5_apply (v1 : FVec Ideal S256x256 .bf16) (v36 : FVec Ideal S256x1 .f32) (v40 v53 v66 : Vec Ideal S2048x256 .bf16) (p : Fin 256) :
    k1_pay5 (F := Ideal) v1 v36 v40 v53 v66 (ix2 p (0 : Fin 1))
      = (((v36 (ix2 p (0 : Fin 1))
            + ∑ c : Fin 2048, Ideal.exp ((∑ d : Fin 256, v1 (ix2 p d) * v40 (ix2 c d)) * tN))
            + ∑ c : Fin 2048, Ideal.exp ((∑ d : Fin 256, v1 (ix2 p d) * v53 (ix2 c d)) * tN))
            + ∑ c : Fin 2048, Ideal.exp ((∑ d : Fin 256, v1 (ix2 p d) * v66 (ix2 c d)) * tN))
          * Ideal.ofBits .f32 0x39000000#32 := by
  rw [pay5_eq]
  show (((v36 (ix2 p (0 : Fin 1)) + chunkCol tN v1 v40 (ix2 p (0 : Fin 1))) + chunkCol tN v1 v53 (ix2 p (0 : Fin 1)))
      + chunkCol tN v1 v66 (ix2 p (0 : Fin 1))) * Ideal.ofBits .f32 0x39000000#32 = _
  rw [chunkCol_apply, chunkCol_apply, chunkCol_apply]

/-- The scale column reads the named constant everywhere. -/
theorem pay6_apply (j : S256x1.Idx) : k1_pay6 (F := Ideal) j = tN := rfl

/-- The stored row at (0, p), from the three columns at (p, 0): 0 - (v22 · v78 - log v77). -/
theorem pay1_apply (v22 v77 v78 : FVec Ideal S256x1 .f32) (p : Fin 256) :
    k1_pay1 (F := Ideal) v22 v77 v78 (ix2 (0 : Fin 1) p)
      = 0 - (v22 (ix2 p (0 : Fin 1)) * v78 (ix2 p (0 : Fin 1)) - Ideal.log (v77 (ix2 p (0 : Fin 1)))) := by
  unfold k1_pay1
  refine (transpose_ix2_apply _ _ (0 : Fin 1) p).trans ?_
  show Ideal.ofBits .f32 0x00000000#32 - (v22 (ix2 p (0 : Fin 1)) * v78 (ix2 p (0 : Fin 1)) - Ideal.log (v77 (ix2 p (0 : Fin 1)))) = _
  rw [Ideal.ofBits_zero_f32]

/-- The whole body's arithmetic at entry (0, p) of the stored row, from the block `v0` of 256 rows, the block `vp` of
    their positive partners and the four stretches `k0 … k3` of 2048 rows. -/
theorem body_apply (v0 vp : Vec Ideal S256x256 .bf16) (k0 k1 k2 k3 : Vec Ideal S2048x256 .bf16) (p : Fin 256) :
    k1_pay1 (F := Ideal) (k1_pay3 v0 vp) (k1_pay5 (k1_pay2 v0) (k1_pay4 v0 k0) k1 k2 k3) (k1_pay6 (F := Ideal)) (ix2 (0 : Fin 1) p)
      = 0 - ((∑ d : Fin 256, v0 (ix2 p d) * vp (ix2 p d)) * tN
          - Ideal.log ((((((0 : EReal)
              + ∑ c : Fin 2048, Ideal.exp ((∑ d : Fin 256, v0 (ix2 p d) * k0 (ix2 c d)) * tN))
              + ∑ c : Fin 2048, Ideal.exp ((∑ d : Fin 256, v0 (ix2 p d) * k1 (ix2 c d)) * tN))
              + ∑ c : Fin 2048, Ideal.exp ((∑ d : Fin 256, v0 (ix2 p d) * k2 (ix2 c d)) * tN))
              + ∑ c : Fin 2048, Ideal.exp ((∑ d : Fin 256, v0 (ix2 p d) * k3 (ix2 c d)) * tN))
            * Ideal.ofBits .f32 0x39000000#32)) := by
  rw [pay1_apply, pay3_apply, pay5_apply, pay4_apply, pay6_apply, pay2_eq]

end Cert.KernelIdeal.Hand

end
-- ==== Proof.KernelValue1C.lean ====
/-
  Where the second kernel region's loads read the array of all 8192 normalised rows: the block of positive partners
  starts at row (256 g + 4096) mod 8192 at the grid point of coordinate g (the kernel's 32-bit word arithmetic never
  wraps for g < 32), stretch j starts at row 2048 j; so the loaded blocks' entries are entries of the array.
-/
import proofs.«417884_j11132555231335_3_alg».proof.Proof.KernelIdealBody1
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx

/-- The zero offsets, however spelt. -/
theorem hz2 : (![0, 0] : Fin 2 → Nat) = fun _ => 0 := funext fun a => by fin_cases a <;> rfl

/-- The partner block's row offset as the kernel computes it in 32-bit words, at every grid point. -/
theorem off1_all : ∀ i : grid1.Coords, k1_off1 i = ![(256 * (i 0).val + 4096) % 8192, 0] := by decide +kernel

/-- The same from the point's coordinate `g`. -/
theorem off1_eq (i : grid1.Coords) (g : Fin 32) (hg : (i 0).val = g.val) :
    k1_off1 i = ![(256 * g.val + 4096) % 8192, 0] := by
  rw [off1_all i, hg]

/-- The partner block's entry (p, d) is the array's entry (s, d), s the row (256 g + 4096) mod 8192 + p. -/
theorem ld_pos_apply (i : grid1.Coords) (g : Fin 32) (hg : (i 0).val = g.val) (x1 : Vec Ideal S8192x256 .bf16) (p d : Fin 256)
    (s : Fin 8192) (hs : s.val = (256 * g.val + 4096) % 8192 + p.val) :
    (View.ld x1 (r1_pos i) : Vec Ideal S256x256 .bf16) (ix2 p d) = x1 (ix2 s d) := by
  show x1 ((r1_pos i).idx (ix2 p d)) = _
  refine congrArg x1 (funext fun a => Fin.ext ?_)
  match a with
  | ⟨0, _⟩ =>
    simp only [LoadRect.idx_apply, Rect.off_unit, Rect.stride_unit, Nat.one_mul]
    rw [off1_eq i g hg]
    exact hs.symm
  | ⟨1, _⟩ =>
    simp only [LoadRect.idx_apply, Rect.off_unit, Rect.stride_unit, Nat.one_mul]
    rw [off1_eq i g hg]
    show 0 + d.val = d.val
    omega

/-- Stretch j's entry (c, d) is the array's entry (s, d), s the row 2048 j + c. -/
theorem ld_k_apply (j : Fin 4) (x1 : Vec Ideal S8192x256 .bf16) (c : Fin 2048) (d : Fin 256)
    (s : Fin 8192) (hs : s.val = 2048 * j.val + c.val) :
    (View.ld x1 (r1_k j) : Vec Ideal S2048x256 .bf16) (ix2 c d) = x1 (ix2 s d) := by
  show x1 ((r1_k j).idx (ix2 c d)) = _
  refine congrArg x1 (funext fun a => Fin.ext ?_)
  match a with
  | ⟨0, _⟩ =>
    simp only [LoadRect.idx_apply, Rect.off_unit, Rect.stride_unit, Nat.one_mul]
    rw [k1_off2_eq j]
    exact hs.symm
  | ⟨1, _⟩ =>
    simp only [LoadRect.idx_apply, Rect.off_unit, Rect.stride_unit, Nat.one_mul]
    rw [k1_off2_eq j]
    show 0 + d.val = d.val
    omega

end Cert.KernelIdeal.Hand

end
-- ==== Proof.SpecN.lean ====
/-
  The specification's similarity and kernel-form row loss as functions of ALREADY NORMALISED rows `y` (what the second
  kernel region is handed), and their agreement with the forms over the raw rows at `y = zn z`.
-/
import proofs.«417884_j11132555231335_3_alg».proof.Proof.Spec

noncomputable section

open scoped BigOperators

namespace Cert.Spec

open Idealize.ShloMosaic

variable (y : Fin 8192 → Fin 256 → EReal)

/-- The similarity of normalised rows `r` and `s`. -/
def simN (r s : Fin 8192) : EReal := ∑ d : Fin 256, y r d * y s d

/-- Row `r`'s loss, kernel form, from normalised rows. -/
def rowKN (r : Fin 8192) : EReal :=
  0 - (simN y r (partner r) * tK - Ideal.log ((∑ s : Fin 8192, Ideal.exp (simN y r s * tK)) * inv8192))

theorem simN_zn (z : Fin 8192 → Fin 256 → EReal) (r s : Fin 8192) : simN (zn z) r s = sim z r s := rfl

theorem rowKN_zn (z : Fin 8192 → Fin 256 → EReal) (r : Fin 8192) : rowKN (zn z) r = rowK z r := rfl

end Cert.Spec

end
-- ==== Proof.KernelValue1.lean ====
/-
  What the second kernel region leaves in its output array, at the ideal instance: entry (0, r) is the kernel-form loss
  of row r of the normalised rows it was handed (`Spec.rowKN`): the scaled similarity with the positive partner minus the
  logarithm of the mean of the exponentials of the scaled similarities with all 8192 rows, negated.
-/
import proofs.«417884_j11132555231335_3_alg».proof.Proof.KernelIdealBody1
import proofs.«417884_j11132555231335_3_alg».proof.Proof.KernelValue1B
import proofs.«417884_j11132555231335_3_alg».proof.Proof.KernelValue1C
import proofs.«417884_j11132555231335_3_alg».proof.Proof.SpecN
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules

set_option maxRecDepth 16384

noncomputable section

open scoped BigOperators

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The named reciprocal of the temperature denotes, at the ideal instance, the exact reciprocal of the reference's
    temperature word. -/
theorem inv_t : Named.named (F := Ideal) Cert.KernelIdeal.κ "inv_t" (φ := .f32) 0x41200000#32 = Cert.Spec.tK :=
  IdealRules.named_const.ideal_named_scalar _ _ _ _ rfl

/-- One stretch's sum of exponentials is the specification's over the stretch's rows: the block `x0` holds rows
    256 g … of the array, stretch j rows 2048 j …, and `row c` names row 2048 j + c. -/
theorem stretch_sum (g : Fin 32) (x0 : Vec Ideal S256x256 .bf16) (x1 : Vec Ideal S8192x256 .bf16)
    (hx0 : ∀ (p : Fin 256) (d : Fin 256), x0 (ix2 p d) = x1 (ix2 (⟨256 * g.val + p.val, by omega⟩ : Fin 8192) d)) (p : Fin 256)
    (j : Fin 4) (row : Fin 2048 → Fin 8192) (hrow : ∀ c : Fin 2048, (row c).val = 2048 * j.val + c.val) :
    (∑ c : Fin 2048, Ideal.exp ((∑ d : Fin 256, x0 (ix2 p d) * (View.ld x1 (r1_k j) : Vec Ideal S2048x256 .bf16) (ix2 c d)) * Cert.Spec.tK))
      = ∑ c : Fin 2048, Ideal.exp (Cert.Spec.simN (fun r d => x1 (ix2 r d)) (⟨256 * g.val + p.val, by omega⟩ : Fin 8192) (row c) * Cert.Spec.tK) := by
  refine Finset.sum_congr rfl fun c _ => ?_
  refine congrArg (fun s : EReal => Ideal.exp (s * Cert.Spec.tK)) ?_
  unfold Cert.Spec.simN
  refine Finset.sum_congr rfl fun d _ => ?_
  rw [hx0 p d, ld_k_apply j x1 c d (row c) (hrow c)]

/-- The similarity with the positive partner: the partner block's row p is the array's row (256 g + p + 4096) mod 8192. -/
theorem partner_sum (i : grid1.Coords) (g : Fin 32) (hg : (i 0).val = g.val) (x0 : Vec Ideal S256x256 .bf16) (x1 : Vec Ideal S8192x256 .bf16)
    (hx0 : ∀ (p : Fin 256) (d : Fin 256), x0 (ix2 p d) = x1 (ix2 (⟨256 * g.val + p.val, by omega⟩ : Fin 8192) d)) (p : Fin 256) :
    (∑ d : Fin 256, x0 (ix2 p d) * (View.ld x1 (r1_pos i) : Vec Ideal S256x256 .bf16) (ix2 p d))
      = Cert.Spec.simN (fun r d => x1 (ix2 r d)) (⟨256 * g.val + p.val, by omega⟩ : Fin 8192)
          (Cert.Spec.partner (⟨256 * g.val + p.val, by omega⟩ : Fin 8192)) := by
  unfold Cert.Spec.simN
  refine Finset.sum_congr rfl fun d _ => ?_
  rw [hx0 p d, ld_pos_apply i g hg x1 p d (Cert.Spec.partner (⟨256 * g.val + p.val, by omega⟩ : Fin 8192)) (by
    show (256 * g.val + p.val + 4096) % 8192 = (256 * g.val + 4096) % 8192 + p.val
    omega)]

/-- The shape of the row loss, as a function of its five sums. -/
theorem loss_congr {A A' S0 S0' S1 S1' S2 S2' S3 S3' : EReal} (hA : A = A') (h0 : S0 = S0') (h1 : S1 = S1') (h2 : S2 = S2') (h3 : S3 = S3')
    (t w : EReal) :
    0 - (A * t - Ideal.log ((((((0 : EReal) + S0) + S1) + S2) + S3) * w))
      = 0 - (A' * t - Ideal.log ((((((0 : EReal) + S0') + S1') + S2') + S3') * w)) := by
  rw [hA, h0, h1, h2, h3]

/-- The body's stored row at an index, at the point of coordinates `i` whose first coordinate is `g`: the kernel-form
    loss of row `256 g + p`, from the whole array `x1` of normalised rows and its block `x0` of rows `256 g …`. -/
theorem out1_2_apply (i : grid1.Coords) (g : Fin 32) (hg : (i 0).val = g.val) (x0 : Vec Ideal S256x256 .bf16) (x1 : Vec Ideal S8192x256 .bf16)
    (hx0 : ∀ (p : Fin 256) (d : Fin 256), x0 (ix2 p d) = x1 (ix2 (⟨256 * g.val + p.val, by omega⟩ : Fin 8192) d)) (p : Fin 256) :
    out1_2 (F := Ideal) i x0 x1 (ix2 (0 : Fin 1) p)
      = Cert.Spec.rowKN (fun r d => x1 (ix2 r d)) (⟨256 * g.val + p.val, by omega⟩ : Fin 8192) := by
  unfold out1_2
  rw [View.canon_unit_zero hz2, View.ld_unit_zero (S := S256x256) hz2]
  refine (body_apply _ _ _ _ _ _ p).trans ?_
  rw [show tN = Cert.Spec.tK from inv_t]
  unfold Cert.Spec.rowKN
  rw [← Cert.Spec.sum_chunks]
  exact loss_congr (partner_sum i g hg x0 x1 hx0 p)
    (stretch_sum g x0 x1 hx0 p 0 (fun c => ⟨c.val, by omega⟩) (fun c => by show c.val = 2048 * 0 + c.val; omega))
    (stretch_sum g x0 x1 hx0 p 1 (fun c => ⟨2048 + c.val, by omega⟩) (fun c => by show 2048 + c.val = 2048 * 1 + c.val; omega))
    (stretch_sum g x0 x1 hx0 p 2 (fun c => ⟨4096 + c.val, by omega⟩) (fun c => by show 4096 + c.val = 2048 * 2 + c.val; omega))
    (stretch_sum g x0 x1 hx0 p 3 (fun c => ⟨6144 + c.val, by omega⟩) (fun c => by show 6144 + c.val = 2048 * 3 + c.val; omega))
    _ _

end Cert.KernelIdeal.Hand

end
-- ==== Proof.KernelFinal1.lean ====
/-
  From the blocks the second kernel region writes back to its whole output array, at the ideal instance: point t of
  the 32 writes the 1 x 256 block of columns 256 t … 256 t + 255, and these blocks tile the 1 x 8192 array. Given what
  the body's stored row holds at an index (`hpay`), entry (0, r) of the array after the region is the kernel-form loss
  of row r of the normalised rows the region was handed.
-/
import proofs.«417884_j11132555231335_3_alg».proof.Proof.KernelIdealBody1
import proofs.«417884_j11132555231335_3_alg».proof.Proof.SpecN
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The printed index maps and the point's coordinate, decided over the grid: window 0 moves down the rows with the
    point, window 1 stays on the whole array, window 2 moves along the columns with the point. -/
theorem final1_idx : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = t.val
    ∧ ((grid1.coords t) 0).val = t.val :=
  (by decide +kernel : ∀ t : Fin grid1.N, _)

/-- The region's grid has 32 points. -/
theorem final1_N : cfg1.N = 32 := N_1

theorem final1_lt32 (t : Fin cfg1.N) : t.val < 32 := lt_of_lt_of_eq t.isLt final1_N

/-- The whole output array as one function of the normalised rows: column `r` holds row `r`'s kernel-form loss. -/
def final1_G (c : Dev nD) : S1x8192.Idx → EReal := fun j =>
  Cert.Spec.rowKN (fun r d => (V c main_v1 : S8192x256.Idx → EReal) (ix2 r d)) ⟨(j 1).val, idx2_lt1 j⟩

/-- Window 0's block at point `t` is rows `256 t … 256 t + 255` of the array of normalised rows. -/
theorem final1_rows_blk (c : Dev nD) (t : Fin cfg1.N) (p : Fin 256) (d : Fin 256) :
    (iblk1 (F := Ideal) V c 0 t : S256x256.Idx → EReal) (ix2 p d)
      = (V c main_v1 : S8192x256.Idx → EReal) (ix2 (⟨256 * t.val + p.val, by have := final1_lt32 t; omega⟩ : Fin 8192) d) := by
  obtain ⟨e0, e1, -⟩ := final1_idx t
  unfold iblk1
  rw [View.read_apply]
  show V c main_v1 _ = V c main_v1 _
  congr 1
  funext a
  apply Fin.ext
  match a with
  | ⟨0, _⟩ => show win1_0.index t (0 : Fin 2) * 256 + 1 * p.val = 256 * t.val + p.val; rw [e0]; omega
  | ⟨1, _⟩ => show win1_0.index t (1 : Fin 2) * 256 + 1 * d.val = d.val; rw [e1]; omega

/-- Window 1's block at every point is the whole array of normalised rows. -/
theorem final1_whole_blk (c : Dev nD) (t : Fin cfg1.N) (r : Fin 8192) (d : Fin 256) :
    (iblk1 (F := Ideal) V c 1 t : S8192x256.Idx → EReal) (ix2 r d) = (V c main_v1 : S8192x256.Idx → EReal) (ix2 r d) := by
  obtain ⟨-, -, e2, e3, -⟩ := final1_idx t
  unfold iblk1
  rw [View.read_apply]
  show V c main_v1 _ = V c main_v1 _
  congr 1
  funext a
  apply Fin.ext
  match a with
  | ⟨0, _⟩ => show win1_1.index t (0 : Fin 2) * 8192 + 1 * r.val = r.val; rw [e2]; omega
  | ⟨1, _⟩ => show win1_1.index t (1 : Fin 2) * 256 + 1 * d.val = d.val; rw [e3]; omega

/-- What a point stores, read at a column of the array: with window 0's block the rows `256 t …` of window 1's block
    `x1`, and `x1`'s entries the rows `Y`, entry `(0, p)` of the stored row is the loss of row `256 t + p` of `Y`. -/
theorem final1_stored_at
    (hpay : ∀ (i : grid1.Coords) (g : Fin 32) (hg : (i 0).val = g.val) (x0 : Vec Ideal S256x256 .bf16) (x1 : Vec Ideal S8192x256 .bf16)
      (hx0 : ∀ (p : Fin 256) (d : Fin 256), x0 (ix2 p d) = x1 (ix2 (⟨256 * g.val + p.val, by omega⟩ : Fin 8192) d)) (p : Fin 256),
      out1_2 (F := Ideal) i x0 x1 (ix2 (0 : Fin 1) p)
        = Cert.Spec.rowKN (fun r d => x1 (ix2 r d)) (⟨256 * g.val + p.val, by omega⟩ : Fin 8192))
    (t : Fin cfg1.N) (x0 : Vec Ideal S256x256 .bf16) (x1 : Vec Ideal S8192x256 .bf16) (Y : Fin 8192 → Fin 256 → EReal)
    (hY : ∀ (r : Fin 8192) (d : Fin 256), x1 (ix2 r d) = Y r d)
    (hx0 : ∀ (p : Fin 256) (d : Fin 256), x0 (ix2 p d) = Y (⟨256 * t.val + p.val, by have := final1_lt32 t; omega⟩ : Fin 8192) d)
    (j : S1x256.Idx) (k : S1x8192.Idx) (hk : (k 1).val = 256 * t.val + (j 1).val) :
    out1_2 (F := Ideal) (grid1.coords t) x0 x1 j = Cert.Spec.rowKN Y ⟨(k 1).val, idx2_lt1 k⟩ := by
  obtain rfl : (fun r d => x1 (ix2 r d)) = Y := funext fun r => funext fun d => hY r d
  have h32 := final1_lt32 t
  have hj : j = ix2 (0 : Fin 1) (⟨(j 1).val, idx2_lt1 j⟩ : Fin 256) := by
    funext a
    match a with
    | ⟨0, _⟩ => exact Subsingleton.elim (α := Fin 1) _ _
    | ⟨1, _⟩ => rfl
  rw [hj]
  refine (hpay (grid1.coords t) ⟨t.val, h32⟩ (final1_idx t).2.2.2.2.2.2 x0 x1 hx0 _).trans ?_
  exact congrArg _ (Fin.ext hk.symm)

/-- What point `t` writes back is its block of `final1_G`. -/
theorem final1_flushed
    (hpay : ∀ (i : grid1.Coords) (g : Fin 32) (hg : (i 0).val = g.val) (x0 : Vec Ideal S256x256 .bf16) (x1 : Vec Ideal S8192x256 .bf16)
      (hx0 : ∀ (p : Fin 256) (d : Fin 256), x0 (ix2 p d) = x1 (ix2 (⟨256 * g.val + p.val, by omega⟩ : Fin 8192) d)) (p : Fin 256),
      out1_2 (F := Ideal) i x0 x1 (ix2 (0 : Fin 1) p)
        = Cert.Spec.rowKN (fun r d => x1 (ix2 r d)) (⟨256 * g.val + p.val, by omega⟩ : Fin 8192))
    (c : Dev nD) (t : Fin cfg1.N) :
    (dat1 (F := Ideal) V c).flushed 2 t = ((cfg1.win 2).blk t).view.read (Elt Ideal) (final1_G V c) := by
  show (cfg1.win 2).cut (grid1.coords t) ((dat1 V c).after 2 t) = _
  rw [after1_2]
  funext j
  obtain ⟨-, -, -, -, -, e5, -⟩ := final1_idx t
  refine final1_stored_at hpay t (iblk1 V c 0 t) (iblk1 V c 1 t) (fun r d => (V c main_v1 : S8192x256.Idx → EReal) (ix2 r d))
    (final1_whole_blk V c t) (final1_rows_blk V c t) j (((cfg1.win 2).blk t).view.emb j) ?_
  show win1_2.index t (1 : Fin 2) * 256 + 1 * (j 1).val = 256 * t.val + (j 1).val
  rw [e5]; omega

/-- An index of the array is in point `t`'s block iff each coordinate is in the block's range on its axis. -/
theorem final1_mem_blk (t : Fin cfg1.N) (i : S1x8192.Idx) :
    i ∈ ((cfg1.win 2).blk t).view.set ↔ ∀ a : Fin 2, win1_2.index t a * S1x256.size a ≤ (i a).val ∧ (i a).val < win1_2.index t a * S1x256.size a + S1x256.size a := by
  show i ∈ ((View.whole main_v2).slice (win1_2.rect t)).set ↔ _
  rw [View.set_slice_whole, Rect.mem_set_unit]
  exact Iff.rfl

/-- The 32 blocks tile the array: column `r` lies in the block of point `r / 256`. -/
theorem final1_cover (i : S1x8192.Idx) : ∃ t : Fin cfg1.N, (cfg1.win 2).flush t = true ∧ i ∈ ((cfg1.win 2).blk t).view.set := by
  have hi0 : (i 0).val < 1 := idx2_lt0 i
  have hi1 : (i 1).val < 8192 := idx2_lt1 i
  let t : Fin cfg1.N := ⟨(i 1).val / 256, by rw [final1_N]; omega⟩
  have ht : t.val = (i 1).val / 256 := rfl
  obtain ⟨-, -, -, -, e4, e5, -⟩ := final1_idx t
  refine ⟨t, flush1_2 t, ?_⟩
  rw [final1_mem_blk]
  intro a
  match a with
  | ⟨0, _⟩ => show win1_2.index t (0 : Fin 2) * 1 ≤ (i 0).val ∧ (i 0).val < win1_2.index t (0 : Fin 2) * 1 + 1; rw [e4]; omega
  | ⟨1, _⟩ => show win1_2.index t (1 : Fin 2) * 256 ≤ (i 1).val ∧ (i 1).val < win1_2.index t (1 : Fin 2) * 256 + 256; rw [e5, ht]; omega

/-- The output array after the region: the kernel-form row losses of the normalised rows the region was handed. -/
theorem final1_of
    (hpay : ∀ (i : grid1.Coords) (g : Fin 32) (hg : (i 0).val = g.val) (x0 : Vec Ideal S256x256 .bf16) (x1 : Vec Ideal S8192x256 .bf16)
      (hx0 : ∀ (p : Fin 256) (d : Fin 256), x0 (ix2 p d) = x1 (ix2 (⟨256 * g.val + p.val, by omega⟩ : Fin 8192) d)) (p : Fin 256),
      out1_2 (F := Ideal) i x0 x1 (ix2 (0 : Fin 1) p)
        = Cert.Spec.rowKN (fun r d => x1 (ix2 r d)) (⟨256 * g.val + p.val, by omega⟩ : Fin 8192))
    (c : Dev nD) (r : Fin 8192) :
    ((dat1 (F := Ideal) V c).arrAt 2 cfg1.N : S1x8192.Idx → EReal) (ix2 (0 : Fin 1) r)
      = Cert.Spec.rowKN (fun r d => (V c main_v1 : S8192x256.Idx → EReal) (ix2 r d)) r := by
  have h := (dat1 (F := Ideal) V c).arrAt_eq_of_cover 2 (final1_G V c) (fun t _ => final1_flushed V hpay c t) final1_cover
  exact congrFun h (ix2 (0 : Fin 1) r)

end Cert.KernelIdeal.Hand

end
-- ==== Proof.KernelTail.lean ====
/-
  The closing host operations of the kernel's program at the ideal instance: the sum of the 1 x 8192 array of row
  losses (a reduction over both axes into a scalar, from the zero word) divided by the word 8192 is the specification's
  kernel-form mean loss, when the array holds the kernel-form row losses.
-/
import proofs.«417884_j11132555231335_3_alg».proof.Proof.Gen.KernelIdeal
import proofs.«417884_j11132555231335_3_alg».proof.Proof.Spec
import Idealize.ShloMosaic.Lib.ValueIdx
import Idealize.ShloMosaic.Lib.ReduceAll
import Idealize.ShloMosaic.PureOps.Ideal.Laws

noncomputable section

open scoped BigOperators

namespace Cert.KernelIdeal.Hand

open Cert.KernelIdeal Cert.KernelIdeal.Gen
open Idealize.ShloMosaic Idealize.ShloMosaic.ValueIdx

/-- The mean of the row losses, as the program's last two operations compute it. -/
theorem tail_eq (L : FVec Ideal S1x8192 .f32) (z : Fin 8192 → Fin 256 → EReal)
    (hL : ∀ r : Fin 8192, L (ix2 (0 : Fin 1) r) = Cert.Spec.rowK z r) (i : S_.Idx) :
    Host.divf (F := Ideal) (Host.reduceAdd (F := Ideal) L (constant (F := Ideal) S_ .f32 0x00000000#32) reducesTo_S1x8192_S_d0_1 h_S_)
        (constant (F := Ideal) S_ .f32 0x46000000#32) i
      = Cert.Spec.lossK z := by
  show Ideal.div (Ideal.hostReduceAdd reducesTo_S1x8192_S_d0_1 L (Ideal.ofBits .f32 0x00000000#32) i)
      (Ideal.ofBits .f32 0x46000000#32) = _
  rw [Ideal.hostReduceAdd_total reducesTo_S1x8192_S_d0_1 (fun b => b.elim0) L _ i, Ideal.ofBits_zero_f32, zero_add,
    sum_idx2, Fin.sum_univ_one, Finset.sum_congr rfl fun r _ => hL r]
  rfl

end Cert.KernelIdeal.Hand

end
-- ==== Proof.KernelValue.lean ====
/-
  The kernel program's result, at the ideal instance, as the specification's kernel-form mean loss of the stacked rows:
  the first region leaves the normalised rows, the second the kernel-form row losses of those, and the closing host
  operations take their mean.
-/
import proofs.«417884_j11132555231335_3_alg».proof.Proof.KernelIdealFrame
import proofs.«417884_j11132555231335_3_alg».proof.Proof.KernelValue0
import proofs.«417884_j11132555231335_3_alg».proof.Proof.KernelValue1
import proofs.«417884_j11132555231335_3_alg».proof.Proof.KernelFinal1
import proofs.«417884_j11132555231335_3_alg».proof.Proof.KernelTail
import Idealize.ShloMosaic.Lib.StableHlo.Run

set_option maxRecDepth 16384

noncomputable section

open scoped BigOperators

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The two argument arrays joined along the rows, as the first host operation writes them. -/
def stacked (x0 x1 : FVec Ideal S4096x256 .f32) : FVec Ideal S8192x256 .f32 :=
  concatenate S8192x256 0 [⟨S4096x256, x0⟩, ⟨S4096x256, x1⟩] concatenates_S4096x256_S4096x256_S8192x256_d0

/-- The first region is entered with the joined array in its input window's array. -/
theorem V1_main_v0 (c : Dev nD) :
    (V1 m ρ c main_v0 : S8192x256.Idx → EReal) = stacked (m ((c : Thread nD τ).loc main_arg0)) (m ((c : Thread nD τ).loc main_arg1)) := by
  show StableHlo.after hostOps0 (W0 m ρ c) (Proc.devRef .tc main_v0) = _
  after_results
  rfl

/-- The stacked rows of core `c`. -/
def zrows (c : Dev nD) : Fin 8192 → Fin 256 → EReal :=
  rowsOf (stacked (m ((c : Thread nD τ).loc main_arg0)) (m ((c : Thread nD τ).loc main_arg1)))

/-- The second region is entered with the normalised rows in the array behind its two input windows. -/
theorem V2_main_v1 (c : Dev nD) (r : Fin 8192) (d : Fin 256) :
    (V2 m ρ c main_v1 : S8192x256.Idx → EReal) (ix2 r d) = Cert.Spec.zn (zrows m c) r d := by
  have h := final0 (V1 m ρ) c r d
  rw [V1_main_v0 m ρ c] at h
  exact (congrFun (W2_arr m ρ c 1) (ix2 r d)).trans h

/-- The second region leaves the kernel-form row losses in its output array. -/
theorem W3_main_v2 (c : Dev nD) (r : Fin 8192) :
    (W3 m ρ c (Proc.devRef .tc main_v2) : S1x8192.Idx → EReal) (ix2 (0 : Fin 1) r) = Cert.Spec.rowK (zrows m c) r := by
  rw [W3_v2 m ρ c, final1_of (V2 m ρ) out1_2_apply c r,
    show (fun r d => (V2 m ρ c main_v1 : S8192x256.Idx → EReal) (ix2 r d)) = Cert.Spec.zn (zrows m c) from
      funext fun r => funext fun d => V2_main_v1 m ρ c r d,
    Cert.Spec.rowKN_zn]

/-- The program's result: the kernel-form mean loss of the stacked rows. -/
theorem W4_main_v4 (c : Dev nD) (i : S_.Idx) :
    (W4 m ρ c (Proc.devRef .tc main_v4) : S_.Idx → EReal) i = Cert.Spec.lossK (zrows m c) := by
  show StableHlo.after hostOps2 (W3 m ρ c) (Proc.devRef .tc main_v4) i = _
  after_results
  exact tail_eq _ _ (W3_main_v2 m ρ c) i

/-- THE VALUE RUN: every weakly fair execution terminates with the result buffer at the kernel-form mean loss of the
    stacked rows and both argument arrays as launched. -/
theorem run_value : θ_run defs (onTc (τ := τ) (main (F := Ideal))) ⟨m, fun _ => 0, ρ⟩ (fun r => ∀ c : Dev nD,
      r.2.mem ((c.tc : Thread nD τ).loc main_v4) = (fun _ => Cert.Spec.lossK (zrows m c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_v4 (by decide))).trans (funext fun i => W4_main_v4 m ρ c i),
     (h c _ (mem_uc main_arg0 (by decide))).trans (W4_main_arg0 m ρ c),
     (h c _ (mem_uc main_arg1 (by decide))).trans (W4_main_arg1 m ρ c)⟩) (run_main m ρ)

end Cert.KernelIdeal.Hand

end
-- ==== Proof.LibGatherPair.lean ====
/-
  A host gather of single ENTRIES of a rank-2 operand [N, M] at a table [R, 2] of (row, column) start words: what
  `x[rows, cols]` of a matrix at two integer vectors of the same length lowers to. Both operand axes are collapsed,
  the start index has two components (the table's axis 1), the result is the vector [R]. Read at r it is the operand
  at (the word at (r, 0), the word at (r, 1)), each read as a signed integer and clamped into its axis.
-/
import Idealize.ShloMosaic.Lib.ValueIdx

noncomputable section

namespace Cert.Lib.GatherPair

open Idealize.ShloMosaic Idealize.ShloMosaic.ValueIdx

variable {α : Type}

/-- The dimension numbers of that gather for an operand [N, M], start indices [R, 2] and result [R]; their conditions
    are decided on a program's literal shapes. -/
abbrev pairDims (N M R : Nat)
    (wf : GatherDims.WF ⟨2, ![N, M]⟩ ⟨2, ![R, 2]⟩ ⟨1, ![R]⟩ [] [0, 1] [] [0, 1] [] 1 ![1, 1]) :
    GatherDims ⟨2, ![N, M]⟩ ⟨2, ![R, 2]⟩ ⟨1, ![R]⟩ where
  offsetDims := []
  collapsedSliceDims := [0, 1]
  operandBatchingDims := []
  startIndicesBatchingDims := []
  startIndexMap := [0, 1]
  indexVectorDim := 1
  sliceSizes := ![1, 1]
  wf := wf

/-- THE GATHER READ AT r: the operand at the two start words of table row r, each read signed and clamped into its
    axis: the row word into [0, N − 1], the column word into [0, M − 1]. -/
theorem gather_pair_apply {N M R w : Nat} (hN : 0 < N) (hM : 0 < M)
    (wf : GatherDims.WF ⟨2, ![N, M]⟩ ⟨2, ![R, 2]⟩ ⟨1, ![R]⟩ [] [0, 1] [] [0, 1] [] 1 ![1, 1])
    (x : (⟨2, ![N, M]⟩ : Shape).Idx → α) (idx : IVec ⟨2, ![R, 2]⟩ w) (r : Fin R) :
    Host.gather (pairDims N M R wf) x idx (ix1 r)
      = x (ix2 (⟨min (idx (ix2 r (0 : Fin 2))).toInt.toNat (N - 1), by omega⟩ : Fin N)
               (⟨min (idx (ix2 r (1 : Fin 2))).toInt.toNat (M - 1), by omega⟩ : Fin M)) := by
  unfold Host.gather
  congr 1
  funext a
  refine Fin.ext ?_
  match a with
  | ⟨0, _⟩ =>
    -- operand axis 0 is collapsed and not batching: no batch and no offset coordinate, the start is component 0
    show (pairDims N M R wf).start (ix1 r) idx 0 + (pairDims N M R wf).batchCoord (ix1 r) 0
      + (pairDims N M R wf).offCoord (ix1 r) 0 = min (idx (ix2 r (0 : Fin 2))).toInt.toNat (N - 1)
    have hm : (0 : Fin 2) ∈ ([0, 1] : List (Fin 2)) := by decide
    rw [GatherDims.batchCoord_eq_zero _ _ _ List.not_mem_nil,
      GatherDims.offCoord_eq_zero _ _ _ (fun h => ((GatherDims.mem_sKept _ _).mp h).1 hm)]
    simp only [Nat.add_zero]
    unfold GatherDims.start
    rw [dif_pos (show (0 : Fin 2) ∈ (pairDims N M R wf).startIndexMap from hm)]
    have hsi : (pairDims N M R wf).siIdx (ix1 r) ⟨List.idxOf (0 : Fin 2) (pairDims N M R wf).startIndexMap,
        List.idxOf_lt_length_iff.2 hm⟩ = ix2 r (0 : Fin 2) := by
      funext b; refine Fin.ext ?_
      match b with
      | ⟨0, _⟩ => rfl
      | ⟨1, _⟩ => rfl
    rw [hsi]
    rfl
  | ⟨1, _⟩ =>
    -- operand axis 1 likewise, its start component 1 of the start index
    show (pairDims N M R wf).start (ix1 r) idx 1 + (pairDims N M R wf).batchCoord (ix1 r) 1
      + (pairDims N M R wf).offCoord (ix1 r) 1 = min (idx (ix2 r (1 : Fin 2))).toInt.toNat (M - 1)
    have hm : (1 : Fin 2) ∈ ([0, 1] : List (Fin 2)) := by decide
    rw [GatherDims.batchCoord_eq_zero _ _ _ List.not_mem_nil,
      GatherDims.offCoord_eq_zero _ _ _ (fun h => ((GatherDims.mem_sKept _ _).mp h).1 hm)]
    simp only [Nat.add_zero]
    unfold GatherDims.start
    rw [dif_pos (show (1 : Fin 2) ∈ (pairDims N M R wf).startIndexMap from hm)]
    have hsi : (pairDims N M R wf).siIdx (ix1 r) ⟨List.idxOf (1 : Fin 2) (pairDims N M R wf).startIndexMap,
        List.idxOf_lt_length_iff.2 hm⟩ = ix2 r (1 : Fin 2) := by
      funext b; refine Fin.ext ?_
      match b with
      | ⟨0, _⟩ => rfl
      | ⟨1, _⟩ => rfl
    rw [hsi]
    rfl

end Cert.Lib.GatherPair

end
-- ==== Proof.RefValue.lean ====
/-
  The reference's result as the specification's mean loss: read one operation at a time off the reference's run,
  the mean over the 8192 rows of the reference-form row loss `Spec.rowR` of the stacked rows.

  The cut: the normalised rows (the divide by the guarded norm), the similarity matrix (the contraction over the 256
  columns), the positives (two gathers of single entries of the similarity matrix at tables of (row, column) words,
  joined), the row loss, and the mean.
-/
import proofs.«417884_j11132555231335_3_alg».proof.Proof.RefRead
import proofs.«417884_j11132555231335_3_alg».proof.Proof.Spec
import proofs.«417884_j11132555231335_3_alg».proof.Proof.LibGatherPair
import Idealize.ShloMosaic.Lib.ValueIdx
import Idealize.ShloMosaic.Lib.ValueIdxRank1
import Idealize.ShloMosaic.Lib.ValueLayout
import Idealize.ShloMosaic.Lib.Pipeline.Value
import Idealize.ShloMosaic.Lib.Affine
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx

/-- The stacked rows: row `r`, column `d` of the two halves joined along the rows. -/
def rows (x0 x1 : FVec Ideal S4096x256 .f32) : Fin 8192 → Fin 256 → EReal :=
  fun r d => Cert.ReferenceIdeal.ReadP.val_main_v0 (F := Ideal) x0 x1 (ix2 r d)

/-! ## Words: the entries of the two index tables -/

/-- A word made from a natural below 2³¹ reads, signed, as that natural. -/
theorem word_toInt (n : Nat) (hn : n < 2147483648) : (BitVec.ofNat 32 n).toInt = (n : Int) := by
  have h1 : (BitVec.ofNat 32 n).toNat = n := by
    rw [BitVec.toNat_ofNat]; exact Nat.mod_eq_of_lt (by omega)
  rw [BitVec.toInt_eq_toNat_of_lt (by rw [h1]; omega), h1]

/-- The select on "the word is negative", between the word plus a count and the word itself, keeps a word that is
    made from a natural below 2³¹: such a word is not negative. -/
theorem wrap_nonneg (w m : BitVec 32) (n : Nat) (hw : w = BitVec.ofNat 32 n) (hn : n < 2147483648) :
    Scalar.select (IntOp.cmpi .slt w 0#32) (IntOp.addi w m) w = BitVec.ofNat 32 n := by
  subst hw
  have hc : ¬ IntOp.cmpi .slt (BitVec.ofNat 32 n) 0#32 = 1#1 := fun h => by
    have h2 := IntOp.cmpi_slt.mp h
    rw [word_toInt n hn] at h2
    have h3 : (0#32 : BitVec 32).toInt = 0 := by decide
    rw [h3] at h2
    omega
  rw [eq_zero_of_ne_one hc, select_zero]

/-- The clamp into [0, N] of a word made from a natural at most N is that natural. -/
theorem clamp_word (n N : Nat) (hn : n ≤ N) (hN : N < 2147483648) :
    min (BitVec.ofNat 32 n).toInt.toNat N = n := by
  rw [word_toInt n (by omega), Int.toNat_natCast]
  omega

/-- The word of n plus the word of k is the word of n + k. -/
theorem word_add (n k : Nat) : IntOp.addi (BitVec.ofNat 32 n) (BitVec.ofNat 32 k) = BitVec.ofNat 32 (n + k) :=
  (BitVec.ofNat_add n k).symm

/-- The first table's row word at q: the word of q. -/
theorem tab1_row (q : Fin 4096) : ReadP.val_main_v15 (F := Ideal) (ix1 q) = BitVec.ofNat 32 q.val := by
  rw [ReadP.val_main_v15_apply, ReadP.val_main_v12_apply, ReadP.val_main_v14_apply, ReadP.val_main_v8_apply,
    ReadP.val_main_v11_apply, ReadP.val_main_c_0_apply]
  exact wrap_nonneg _ _ q.val rfl (by have := q.isLt; omega)

/-- The first table's column word at q: the word of q + 4096. -/
theorem tab1_col (q : Fin 4096) : ReadP.val_main_v20 (F := Ideal) (ix1 q) = BitVec.ofNat 32 (q.val + 4096) := by
  rw [ReadP.val_main_v20_apply, ReadP.val_main_v17_apply, ReadP.val_main_v19_apply, ReadP.val_main_v10_apply,
    ReadP.val_main_v8_apply, ReadP.val_main_v9_apply, ReadP.val_main_c_apply, ReadP.val_main_v16_apply,
    ReadP.val_main_c_2_apply]
  exact wrap_nonneg _ _ (q.val + 4096) (word_add q.val 4096) (by have := q.isLt; omega)

/-- The second table's row word at q: the word of q + 4096. -/
theorem tab2_row (q : Fin 4096) : ReadP.val_main_v31 (F := Ideal) (ix1 q) = BitVec.ofNat 32 (q.val + 4096) := by
  rw [ReadP.val_main_v31_apply, ReadP.val_main_v28_apply, ReadP.val_main_v30_apply, ReadP.val_main_v26_apply,
    ReadP.val_main_v8_apply, ReadP.val_main_v25_apply, ReadP.val_main_c_4_apply, ReadP.val_main_v27_apply,
    ReadP.val_main_c_5_apply]
  exact wrap_nonneg _ _ (q.val + 4096) (word_add q.val 4096) (by have := q.isLt; omega)

/-- The second table's column word at q: the word of q. -/
theorem tab2_col (q : Fin 4096) : ReadP.val_main_v36 (F := Ideal) (ix1 q) = BitVec.ofNat 32 q.val := by
  rw [ReadP.val_main_v36_apply, ReadP.val_main_v33_apply, ReadP.val_main_v35_apply, ReadP.val_main_v8_apply,
    ReadP.val_main_v32_apply, ReadP.val_main_c_7_apply]
  exact wrap_nonneg _ _ q.val rfl (by have := q.isLt; omega)

/-- A column [4096, 1] made from a vector reads the vector at its row (the four columns of the two tables). -/
theorem idx_col21 (q : Fin 4096) (c : Fin 1) : ReadP.idx_main_v21 (ix2 q c) = ix1 q := by
  funext a; match a with | ⟨0, _⟩ => rfl
theorem idx_col22 (q : Fin 4096) (c : Fin 1) : ReadP.idx_main_v22 (ix2 q c) = ix1 q := by
  funext a; match a with | ⟨0, _⟩ => rfl
theorem idx_col37 (q : Fin 4096) (c : Fin 1) : ReadP.idx_main_v37 (ix2 q c) = ix1 q := by
  funext a; match a with | ⟨0, _⟩ => rfl
theorem idx_col38 (q : Fin 4096) (c : Fin 1) : ReadP.idx_main_v38 (ix2 q c) = ix1 q := by
  funext a; match a with | ⟨0, _⟩ => rfl

/-- The first table at (q, 0): its first column, the word of q. -/
theorem v23_0 (q : Fin 4096) : ReadP.val_main_v23 (F := Ideal) (ix2 q (0 : Fin 2)) = BitVec.ofNat 32 q.val := by
  refine (concatenate_pair_apply_left (t := S4096x2) (s₁ := S4096x1) (s₂ := S4096x1) 1
    (ReadP.val_main_v21 (F := Ideal)) (ReadP.val_main_v22 (F := Ideal)) concatenates_S4096x1_S4096x1_S4096x2_d1
    (ix2 q (0 : Fin 2)) rfl (ix2 q (0 : Fin 1))
    (fun b => by match b with | ⟨0, _⟩ => rfl | ⟨1, _⟩ => rfl)).trans ?_
  rw [ReadP.val_main_v21_apply, idx_col21]
  exact tab1_row q

/-- The first table at (q, 1): its second column, the word of q + 4096. -/
theorem v23_1 (q : Fin 4096) : ReadP.val_main_v23 (F := Ideal) (ix2 q (1 : Fin 2)) = BitVec.ofNat 32 (q.val + 4096) := by
  refine (concatenate_pair_apply_right (t := S4096x2) (s₁ := S4096x1) (s₂ := S4096x1) 1
    (ReadP.val_main_v21 (F := Ideal)) (ReadP.val_main_v22 (F := Ideal)) concatenates_S4096x1_S4096x1_S4096x2_d1
    (ix2 q (1 : Fin 2)) rfl rfl (ix2 q (0 : Fin 1))
    (fun b hb => by match b, hb with | ⟨0, _⟩, _ => rfl | ⟨1, _⟩, hb => exact absurd rfl hb) rfl).trans ?_
  rw [ReadP.val_main_v22_apply, idx_col22]
  exact tab1_col q

/-- The second table at (q, 0): the word of q + 4096. -/
theorem v39_0 (q : Fin 4096) : ReadP.val_main_v39 (F := Ideal) (ix2 q (0 : Fin 2)) = BitVec.ofNat 32 (q.val + 4096) := by
  refine (concatenate_pair_apply_left (t := S4096x2) (s₁ := S4096x1) (s₂ := S4096x1) 1
    (ReadP.val_main_v37 (F := Ideal)) (ReadP.val_main_v38 (F := Ideal)) concatenates_S4096x1_S4096x1_S4096x2_d1
    (ix2 q (0 : Fin 2)) rfl (ix2 q (0 : Fin 1))
    (fun b => by match b with | ⟨0, _⟩ => rfl | ⟨1, _⟩ => rfl)).trans ?_
  rw [ReadP.val_main_v37_apply, idx_col37]
  exact tab2_row q

/-- The second table at (q, 1): the word of q. -/
theorem v39_1 (q : Fin 4096) : ReadP.val_main_v39 (F := Ideal) (ix2 q (1 : Fin 2)) = BitVec.ofNat 32 q.val := by
  refine (concatenate_pair_apply_right (t := S4096x2) (s₁ := S4096x1) (s₂ := S4096x1) 1
    (ReadP.val_main_v37 (F := Ideal)) (ReadP.val_main_v38 (F := Ideal)) concatenates_S4096x1_S4096x1_S4096x2_d1
    (ix2 q (1 : Fin 2)) rfl rfl (ix2 q (0 : Fin 1))
    (fun b hb => by match b, hb with | ⟨0, _⟩, _ => rfl | ⟨1, _⟩, hb => exact absurd rfl hb) rfl).trans ?_
  rw [ReadP.val_main_v38_apply, idx_col38]
  exact tab2_col q

/-! ## The normalised rows -/

/-- The norm's sum for the entry (r, d) runs over row r. -/
theorem idx_norm (r : Fin 8192) (d k : Fin 256) :
    ReadP.idx_main_call0_v1 (ReadP.idx_main_call0_v2 (ReadP.idx_main_v4 (ix2 r d))) k = ix2 r k := by
  funext a; match a with | ⟨0, _⟩ => rfl | ⟨1, _⟩ => rfl

/-- The divide's result at (r, d) is the entry over the guarded norm of its row. -/
theorem zn_at (x0 x1 : FVec Ideal S4096x256 .f32) (r : Fin 8192) (d : Fin 256) :
    ReadP.val_main_v5 (F := Ideal) x0 x1 (ix2 r d) = Cert.Spec.zn (rows x0 x1) r d := by
  rw [ReadP.val_main_v5_apply, ReadP.val_main_v4_apply, ReadP.val_main_v3_apply, ReadP.val_main_v1_apply,
    ReadP.val_main_call0_v2_apply, ReadP.val_main_call0_v1_apply, ReadP.val_main_call0_cst_apply,
    ReadP.val_main_v2_apply, ReadP.val_main_cst_apply]
  simp only [ReadP.val_main_call0_v0_apply, idx_norm, Ideal.hostDivf_def, Ideal.maximumf_def,
    Ideal.hostUnary_sqrt_def, Ideal.mulf_def, Ideal.ofBits_def, Ideal.ofBits_zero_f32, zero_add]
  rfl

/-! ## The similarity matrix -/

theorem lidx_sim (r s : Fin 8192) (k : Fin 256) : ReadP.lidx_main_v7 (ix2 r s) k = ix2 r k := by
  funext a; match a with | ⟨0, _⟩ => rfl | ⟨1, _⟩ => rfl

theorem ridx_sim (r s : Fin 8192) (k : Fin 256) : ReadP.idx_main_v6 (ReadP.ridx_main_v7 (ix2 r s) k) = ix2 s k := by
  funext a; match a with | ⟨0, _⟩ => rfl | ⟨1, _⟩ => rfl

/-- The contraction's result at (r, s) is the similarity of rows r and s. -/
theorem sim_at (x0 x1 : FVec Ideal S4096x256 .f32) (r s : Fin 8192) :
    ReadP.val_main_v7 (F := Ideal) x0 x1 (ix2 r s) = Cert.Spec.sim (rows x0 x1) r s := by
  rw [ReadP.val_main_v7_apply]
  simp only [ReadP.val_main_v6_apply, lidx_sim, ridx_sim, zn_at]
  rfl

/-! ## The positives -/

/-- The first gather at q: the similarity matrix at (q, q + 4096). Both words are in range, so the clamps keep them. -/
theorem v24_at (x0 x1 : FVec Ideal S4096x256 .f32) (q : Fin 4096) :
    ReadP.val_main_v24 (F := Ideal) x0 x1 (ix1 q)
      = ReadP.val_main_v7 (F := Ideal) x0 x1
          (ix2 (⟨q.val, by have := q.isLt; omega⟩ : Fin 8192) (⟨q.val + 4096, by have := q.isLt; omega⟩ : Fin 8192)) := by
  refine (Cert.Lib.GatherPair.gather_pair_apply (N := 8192) (M := 8192) (R := 4096) (by norm_num) (by norm_num)
    gather_S8192x8192_S4096x2_S4096_n_01_n_n_01_1_11_wf (ReadP.val_main_v7 (F := Ideal) x0 x1)
    (ReadP.val_main_v23 (F := Ideal)) q).trans ?_
  refine congrArg (ReadP.val_main_v7 (F := Ideal) x0 x1) (funext fun a => Fin.ext ?_)
  match a with
  | ⟨0, _⟩ =>
    show min (ReadP.val_main_v23 (F := Ideal) (ix2 q (0 : Fin 2))).toInt.toNat (8192 - 1) = q.val
    rw [v23_0]
    exact clamp_word q.val (8192 - 1) (by have := q.isLt; omega) (by norm_num)
  | ⟨1, _⟩ =>
    show min (ReadP.val_main_v23 (F := Ideal) (ix2 q (1 : Fin 2))).toInt.toNat (8192 - 1) = q.val + 4096
    rw [v23_1]
    exact clamp_word (q.val + 4096) (8192 - 1) (by have := q.isLt; omega) (by norm_num)

/-- The second gather at q: the similarity matrix at (q + 4096, q). -/
theorem v40_at (x0 x1 : FVec Ideal S4096x256 .f32) (q : Fin 4096) :
    ReadP.val_main_v40 (F := Ideal) x0 x1 (ix1 q)
      = ReadP.val_main_v7 (F := Ideal) x0 x1
          (ix2 (⟨q.val + 4096, by have := q.isLt; omega⟩ : Fin 8192) (⟨q.val, by have := q.isLt; omega⟩ : Fin 8192)) := by
  refine (Cert.Lib.GatherPair.gather_pair_apply (N := 8192) (M := 8192) (R := 4096) (by norm_num) (by norm_num)
    gather_S8192x8192_S4096x2_S4096_n_01_n_n_01_1_11_wf (ReadP.val_main_v7 (F := Ideal) x0 x1)
    (ReadP.val_main_v39 (F := Ideal)) q).trans ?_
  refine congrArg (ReadP.val_main_v7 (F := Ideal) x0 x1) (funext fun a => Fin.ext ?_)
  match a with
  | ⟨0, _⟩ =>
    show min (ReadP.val_main_v39 (F := Ideal) (ix2 q (0 : Fin 2))).toInt.toNat (8192 - 1) = q.val + 4096
    rw [v39_0]
    exact clamp_word (q.val + 4096) (8192 - 1) (by have := q.isLt; omega) (by norm_num)
  | ⟨1, _⟩ =>
    show min (ReadP.val_main_v39 (F := Ideal) (ix2 q (1 : Fin 2))).toInt.toNat (8192 - 1) = q.val
    rw [v39_1]
    exact clamp_word q.val (8192 - 1) (by have := q.isLt; omega) (by norm_num)

/-- The joined gathers at r: the similarity of row r and its partner, the same sample in the other half.
    Below 4096 the first gather answers, at (r, r + 4096); from 4096 on the second, at (r, r − 4096). -/
theorem v41_at (x0 x1 : FVec Ideal S4096x256 .f32) (r : Fin 8192) :
    ReadP.val_main_v41 (F := Ideal) x0 x1 (ix1 r) = Cert.Spec.sim (rows x0 x1) r (Cert.Spec.partner r) := by
  have hr8 := r.isLt
  by_cases hr : r.val < 4096
  · refine (concatenate_pair_apply_left (t := S8192) (s₁ := S4096) (s₂ := S4096) 0
      (ReadP.val_main_v24 (F := Ideal) x0 x1) (ReadP.val_main_v40 (F := Ideal) x0 x1) concatenates_S4096_S4096_S8192_d0
      (ix1 r) rfl (ix1 (⟨r.val, hr⟩ : Fin 4096)) (fun b => by match b with | ⟨0, _⟩ => rfl)).trans ?_
    rw [v24_at, sim_at]
    have e : (⟨r.val + 4096, by omega⟩ : Fin 8192) = Cert.Spec.partner r :=
      Fin.ext (by show r.val + 4096 = (r.val + 4096) % 8192; omega)
    exact congrArg (Cert.Spec.sim (rows x0 x1) r) e
  · have hr' : 4096 ≤ r.val := Nat.le_of_not_lt hr
    refine (concatenate_pair_apply_right (t := S8192) (s₁ := S4096) (s₂ := S4096) 0
      (ReadP.val_main_v24 (F := Ideal) x0 x1) (ReadP.val_main_v40 (F := Ideal) x0 x1) concatenates_S4096_S4096_S8192_d0
      (ix1 r) rfl rfl (ix1 (⟨r.val - 4096, by omega⟩ : Fin 4096))
      (fun b hb => by match b, hb with | ⟨0, _⟩, hb => exact absurd rfl hb)
      (by show r.val - 4096 + 4096 = r.val; omega)).trans ?_
    rw [v40_at, sim_at]
    have e0 : (⟨r.val - 4096 + 4096, by omega⟩ : Fin 8192) = r := Fin.ext (by show r.val - 4096 + 4096 = r.val; omega)
    have e : (⟨r.val - 4096, by omega⟩ : Fin 8192) = Cert.Spec.partner r :=
      Fin.ext (by show r.val - 4096 = (r.val + 4096) % 8192; omega)
    exact (congrArg (fun a => Cert.Spec.sim (rows x0 x1) a _) e0).trans (congrArg (Cert.Spec.sim (rows x0 x1) r) e)

/-! ## The row loss and the mean -/

/-- The sum of exponentials for row r runs over row r of the similarity matrix. -/
theorem idx_exp (r k : Fin 8192) : ReadP.idx_main_v45 (ix1 r) k = ix2 r k := by
  funext a; match a with | ⟨0, _⟩ => rfl | ⟨1, _⟩ => rfl

/-- The negated difference at r is the reference-form loss of row r. -/
theorem row_at (x0 x1 : FVec Ideal S4096x256 .f32) (r : Fin 8192) :
    ReadP.val_main_v52 (F := Ideal) x0 x1 (ix1 r) = Cert.Spec.rowR (rows x0 x1) r := by
  rw [ReadP.val_main_v52_apply, ReadP.val_main_v51_apply, ReadP.val_main_v49_apply, ReadP.val_main_v50_apply,
    ReadP.val_main_v47_apply, ReadP.val_main_v45_apply, ReadP.val_main_cst_10_apply, ReadP.val_main_v46_apply,
    ReadP.val_main_cst_11_apply, ReadP.val_main_v48_apply, ReadP.val_main_cst_12_apply, v41_at]
  simp only [ReadP.val_main_v44_apply, ReadP.val_main_v43_apply, ReadP.val_main_v42_apply, ReadP.val_main_cst_9_apply,
    idx_exp, sim_at, Ideal.hostNegf_def, Ideal.negf_def, Ideal.subf_def, Ideal.hostDivf_def,
    Ideal.hostUnary_log_def, Ideal.hostUnary_exp_def, Ideal.ofBits_def, Ideal.ofBits_zero_f32, zero_add]
  rfl

/-- The reference's scalar result is the reference-form mean loss of the stacked rows. -/
theorem ref_loss (x0 x1 : FVec Ideal S4096x256 .f32) (i : S_.Idx) :
    Cert.ReferenceIdeal.ReadP.val_main_v54 (F := Ideal) x0 x1 i = Cert.Spec.lossR (rows x0 x1) := by
  rw [ReadP.val_main_v54_apply, ReadP.val_main_v53_apply, ReadP.val_main_cst_13_apply, ReadP.val_main_cst_14_apply,
    Fintype.sum_equiv idxEquiv1 (ReadP.val_main_v52 (F := Ideal) x0 x1) (Cert.Spec.rowR (rows x0 x1))
      (fun j => (congrArg (ReadP.val_main_v52 (F := Ideal) x0 x1) (eq_ix1 j)).trans (row_at x0 x1 (j 0)))]
  simp only [Ideal.hostDivf_def, Ideal.ofBits_def, Ideal.ofBits_zero_f32, zero_add]
  rfl

end Cert.ReferenceIdeal.RefValue

end
-- ==== Proof.lean ====
/-
  The contrastive (NT-Xent) loss of 8192 rows of width 256 — the two argument arrays joined along the rows — computed by
  a kernel program of two regions and by a host reference, equal over the extended reals.

  Both programs normalise each row by its guarded norm, `zn r = z r / max (sqrt (Σ_k z r k²)) ε`, take the cosine
  similarities `sim r s = Σ_d zn r d · zn s d`, and average over the rows the loss
      −( sim r (r + 4096 mod 8192) · t − log ( mean_s exp (sim r s · t) ) ).
  The kernel program's first region writes the normalised rows block by block; its second region reads them through two
  windows on that one array (a block of 256 rows, and all rows), accumulates the exponentials of the scaled similarities
  over four stretches of 2048 columns, scales by 2⁻¹³ and stores 256 row losses per grid point; the host sums the row
  and divides by 8192. The reference divides by the temperature word (the rational 13421773 / 2²⁷) where the kernel
  multiplies by its named reciprocal 2²⁷ / 13421773: a quotient by a nonzero real is the product with its reciprocal on
  every extended real, a sum taken in stretches is the sum, and 0 − x = −x; no finiteness is used.

  The frames of the two kernel programs are the run of their four items (host stretch, region, region, host stretch)
  with every unscoped buffer read back at the end; the reference's frame is its run with the result dropped.
-/
import proofs.«417884_j11132555231335_3_alg».proof.Defs
import proofs.«417884_j11132555231335_3_alg».proof.Proof.Gen.Kernel
import proofs.«417884_j11132555231335_3_alg».proof.Proof.Gen.KernelIdeal
import proofs.«417884_j11132555231335_3_alg».proof.Proof.Gen.ReferenceIdeal
import proofs.«417884_j11132555231335_3_alg».proof.Proof.Gen.Pre_finite_inputs
import proofs.«417884_j11132555231335_3_alg».proof.Proof.RefRead
import proofs.«417884_j11132555231335_3_alg».proof.Proof.KernelFrame
import proofs.«417884_j11132555231335_3_alg».proof.Proof.KernelValue
import proofs.«417884_j11132555231335_3_alg».proof.Proof.RefValue
import Idealize.ShloMosaic.PureOps.IdealRules

noncomputable section

namespace Cert.Proof

open Idealize.ShloMosaic Idealize.SL.Sem

/-- The word-level kernel program runs and leaves its arguments as launched. -/
theorem frame_p : Cert.frame_Kernel := fun m ρ _ => Cert.Kernel.Hand.frame m ρ

/-- So does the idealized kernel program. -/
theorem frame_pi : Cert.frame_KernelIdeal := fun m ρ _ => Cert.KernelIdeal.Hand.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- One ledger entry per occurrence of the temperature's reciprocal in the second kernel (the four stretches and the
    positive pair): the table gives the name the exact reciprocal of the reference's temperature word. -/
theorem inv_t_statement :
    IdealRules.named_const.Statement Cert.KernelIdeal.κ "inv_t" .f32 0x41200000#32 ((134217728 / 13421773 : ℝ) : EReal) :=
  IdealRules.named_const.statement Cert.KernelIdeal.κ "inv_t" .f32 0x41200000#32 ((134217728 / 13421773 : ℝ) : EReal) rfl

theorem preserves : Cert.preserves_Kernel_KernelIdeal :=
  ⟨inv_t_statement, inv_t_statement, inv_t_statement, inv_t_statement, inv_t_statement⟩

/-- Both idealized programs end with the mean loss of the stacked rows: the kernel's in the form with the reciprocal and
    the factor 2⁻¹³, the reference's in the form with the two quotients; the forms agree on every extended real. -/
theorem algebraic : Cert.algebraic_KernelIdeal_ReferenceIdeal := by
  intro m ρ m' ρ' _ hagree
  refine ⟨fun c => (fun _ => Cert.Spec.lossK (Cert.KernelIdeal.Hand.zrows m c)), Cert.KernelIdeal.Hand.run_value m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v54_eq, (hagree c).1, (hagree c).2]
  funext i
  rw [Cert.ReferenceIdeal.RefValue.ref_loss, ← Cert.Spec.lossK_eq_lossR]
  rfl

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
